-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_v28 : IVec S_ 1) (main_v33 : IVec S800000 1) : IVec S_ 1 :=
  let main_c_12 : IVec S_ 1 := constantI S_ 1 1#1
  let main_v34 : IVec S_ 1 := (fun x v => Host.reduce IntOp.andi x v reducesTo_S800000_S_d0 h_S_) main_v33 main_c_12
  let main_v35 : IVec S_ 1 := andi main_v28 main_v34
  main_v35

def fn_part1 {F : FTy → Type} [FloatOps F] (main_arg2 : IVec S800000 32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294917296#32
  let main_v29 : IVec S800000 32 := broadcastInDim S800000 ![] bcast_S_S800000 main_c_10
  let main_v30 : IVec S800000 1 := cmpi .sge main_arg2 main_v29
  let main_c_11 : IVec S_ 32 := constantI S_ 32 50000#32
  let main_v31 : IVec S800000 32 := broadcastInDim S800000 ![] bcast_S_S800000 main_c_11
  let main_v32 : IVec S800000 1 := cmpi .slt main_arg2 main_v31
  let main_v33 : IVec S800000 1 := andi main_v30 main_v32
  fn_part2 (F := F) main_v28 main_v33

def fn {F : FTy → Type} [FloatOps F] (main_arg0 : FVec F S50000x64 .f32) (main_arg1 : FVec F S800000x32 .f32) (main_arg2 : IVec S800000 32) (main_arg3 : IVec S800000 32) (main_arg4 : FVec F S160x64 .f32) (main_arg5 : FVec F S64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg4
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_v13 main_v16
-- ==== Kernel.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S_ : Shape := ⟨0, ![]⟩
abbrev S2816 : Shape := ⟨1, ![2816]⟩
abbrev S802816 : Shape := ⟨1, ![802816]⟩
abbrev S2816x32 : Shape := ⟨2, ![2816, 32]⟩
abbrev S802816x32 : Shape := ⟨2, ![802816, 32]⟩
abbrev S802816x1 : Shape := ⟨2, ![802816, 1]⟩
abbrev S1 : Shape := ⟨1, ![1]⟩
abbrev S1x1 : Shape := ⟨2, ![1, 1]⟩
abbrev S802816x64 : Shape := ⟨2, ![802816, 64]⟩
abbrev S32x64 : Shape := ⟨2, ![32, 64]⟩
abbrev S8192x64 : Shape := ⟨2, ![8192, 64]⟩
abbrev S8192x32 : Shape := ⟨2, ![8192, 32]⟩
abbrev S1x64 : Shape := ⟨2, ![1, 64]⟩
abbrev S50001x64 : Shape := ⟨2, ![50001, 64]⟩

abbrev nBuf : Space → Nat
  | .hbm => 75
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S2816, .i32⟩
  | .hbm, ⟨10, _⟩ => ⟨S802816, .i32⟩
  | .hbm, ⟨11, _⟩ => ⟨S_, .i32⟩
  | .hbm, ⟨12, _⟩ => ⟨S2816, .i32⟩
  | .hbm, ⟨13, _⟩ => ⟨S802816, .i32⟩
  | .hbm, ⟨14, _⟩ => ⟨S_, .f32⟩
  | .hbm, ⟨15, _⟩ => ⟨S2816x32, .f32⟩
  | .hbm, ⟨16, _⟩ => ⟨S802816x32, .f32⟩
  | .hbm, ⟨17, _⟩ => ⟨S_, .i32⟩
  | .hbm, ⟨18, _⟩ => ⟨S802816, .i32⟩
  | .hbm, ⟨19, _⟩ => ⟨S802816, .i32⟩
  | .hbm, ⟨20, _⟩ => ⟨S_, .i32⟩
  | .hbm, ⟨21, _⟩ => ⟨S802816, .i32⟩
  | .hbm, ⟨22, _⟩ => ⟨S802816, .i1⟩
  | .hbm, ⟨23, _⟩ => ⟨S_, .i32⟩
  | .hbm, ⟨24, _⟩ => ⟨S802816, .i32⟩
  | .hbm, ⟨25, _⟩ => ⟨S802816, .i32⟩
  | .hbm, ⟨26, _⟩ => ⟨S802816, .i32⟩
  | .hbm, ⟨27, _⟩ => ⟨S802816x1, .i32⟩
  | .hbm, ⟨28, _⟩ => ⟨S1, .i32⟩
  | .hbm, ⟨29, _⟩ => ⟨S_, .i32⟩
  | .hbm, ⟨30, _⟩ => ⟨S802816x1, .i32⟩
  | .hbm, ⟨31, _⟩ => ⟨S802816x1, .i1⟩
  | .hbm, ⟨32, _⟩ => ⟨S1x1, .i32⟩
  | .hbm, ⟨33, _⟩ => ⟨S802816x1, .i32⟩
  | .hbm, ⟨34, _⟩ => ⟨S802816x1, .i1⟩
  | .hbm, ⟨35, _⟩ => ⟨S802816x1, .i1⟩
  | .hbm, ⟨36, _⟩ => ⟨S_, .i1⟩
  | .hbm, ⟨37, _⟩ => ⟨S802816, .i1⟩
  | .hbm, ⟨38, _⟩ => ⟨S802816x64, .f32⟩
  | .hbm, ⟨39, _⟩ => ⟨S802816x64, .i1⟩
  | .hbm, ⟨40, _⟩ => ⟨S_, .f32⟩
  | .hbm, ⟨41, _⟩ => ⟨S802816x64, .f32⟩
  | .hbm, ⟨42, _⟩ => ⟨S802816x64, .f32⟩
  | .hbm, ⟨43, _⟩ => ⟨S_, .i32⟩
  | .hbm, ⟨44, _⟩ => ⟨S802816, .i32⟩
  | .hbm, ⟨45, _⟩ => ⟨S802816, .i1⟩
  | .hbm, ⟨46, _⟩ => ⟨S_, .i32⟩
  | .hbm, ⟨47, _⟩ => ⟨S802816, .i32⟩
  | .hbm, ⟨48, _⟩ => ⟨S802816, .i32⟩
  | .hbm, ⟨49, _⟩ => ⟨S802816, .i32⟩
  | .hbm, ⟨50, _⟩ => ⟨S802816x1, .i32⟩
  | .hbm, ⟨51, _⟩ => ⟨S1, .i32⟩
  | .hbm, ⟨52, _⟩ => ⟨S_, .i32⟩
  | .hbm, ⟨53, _⟩ => ⟨S802816x1, .i32⟩
  | .hbm, ⟨54, _⟩ => ⟨S802816x1, .i1⟩
  | .hbm, ⟨55, _⟩ => ⟨S1x1, .i32⟩
  | .hbm, ⟨56, _⟩ => ⟨S802816x1, .i32⟩
  | .hbm, ⟨57, _⟩ => ⟨S802816x1, .i1⟩
  | .hbm, ⟨58, _⟩ => ⟨S802816x1, .i1⟩
  | .hbm, ⟨59, _⟩ => ⟨S_, .i1⟩
  | .hbm, ⟨60, _⟩ => ⟨S802816, .i1⟩
  | .hbm, ⟨61, _⟩ => ⟨S802816x64, .f32⟩
  | .hbm, ⟨62, _⟩ => ⟨S802816x64, .i1⟩
  | .hbm, ⟨63, _⟩ => ⟨S_, .f32⟩
  | .hbm, ⟨64, _⟩ => ⟨S802816x64, .f32⟩
  | .hbm, ⟨65, _⟩ => ⟨S802816x64, .f32⟩
  | .hbm, ⟨66, _⟩ => ⟨S64x64, .f32⟩
  | .hbm, ⟨67, _⟩ => ⟨S64x64, .f32⟩
  | .hbm, ⟨68, _⟩ => ⟨S32x64, .f32⟩
  | .hbm, ⟨69, _⟩ => ⟨S802816x64, .f32⟩
  | .hbm, ⟨70, _⟩ => ⟨S_, .f32⟩
  | .hbm, ⟨71, _⟩ => ⟨S50001x64, .f32⟩
  | .hbm, ⟨72, _⟩ => ⟨S802816x1, .i32⟩
  | .hbm, ⟨73, _⟩ => ⟨S50001x64, .f32⟩
  | .hbm, ⟨74, _⟩ => ⟨S50000x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x32, .f32⟩
  | .local _ .vmem, ⟨5, _⟩ => ⟨S8192x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S8192x64, .f32⟩
  | .local _ .vmem, ⟨13, _⟩ => ⟨S8192x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v8 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_cst_2 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S2816 : S_.BroadcastsInDim S2816 (![] : Fin 0 → Fin S2816.rank)
  concatenates_S800000_S2816_S802816_d0 : Shape.Concatenates [S800000, S2816] S802816 0
  bcast_S_S2816x32 : S_.BroadcastsInDim S2816x32 (![] : Fin 0 → Fin S2816x32.rank)
  concatenates_S800000x32_S2816x32_S802816x32_d0 : Shape.Concatenates [S800000x32, S2816x32] S802816x32 0
  bcast_S_S802816 : S_.BroadcastsInDim S802816 (![] : Fin 0 → Fin S802816.rank)
  bcast_S802816_S802816x1_0 : S802816.BroadcastsInDim S802816x1 (![0] : Fin 1 → Fin S802816x1.rank)
  bcast_S_S802816x1 : S_.BroadcastsInDim S802816x1 (![] : Fin 0 → Fin S802816x1.rank)
  bcast_S1_S1x1_1 : S1.BroadcastsInDim S1x1 (![1] : Fin 1 → Fin S1x1.rank)
  bcast_S1x1_S802816x1_0_1 : S1x1.BroadcastsInDim S802816x1 (![0, 1] : Fin 2 → Fin S802816x1.rank)
  reducesTo_S802816x1_S802816_d1 : S802816x1.ReducesTo [1] S802816
  h_S_ : 0 < S_.numel
  bcast_S802816_S802816x64_0 : S802816.BroadcastsInDim S802816x64 (![0] : Fin 1 → Fin S802816x64.rank)
  bcast_S_S802816x64 : S_.BroadcastsInDim S802816x64 (![] : Fin 0 → Fin S802816x64.rank)
  slices_S160x64_S64x64_0_0 : S160x64.Slices ![0, 0] S64x64
  slices_S160x64_S64x64_64_0 : S160x64.Slices ![64, 0] S64x64
  slices_S160x64_S32x64_128_0 : S160x64.Slices ![128, 0] S32x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  bcast_S_S50001x64 : S_.BroadcastsInDim S50001x64 (![] : Fin 0 → Fin S50001x64.rank)
  slices_S50001x64_S50000x64_0_0 : S50001x64.Slices ![0, 0] S50000x64
  gather_S50000x64_S802816x1_S802816x64_1_0_n_n_0_1_164_wf : GatherDims.WF S50000x64 S802816x1 S802816x64 [1] [0] [] [0] [] 1 ![1, 64]
  dot_S8192x64_S64x64_S8192x64_1_0_0_1_n_n_wf : DotDims.WF S8192x64 S64x64 S8192x64 [1] [0] [0] [1] [] []
  dot_S8192x32_S32x64_S8192x64_1_0_0_1_n_n_wf : DotDims.WF S8192x32 S32x64 S8192x64 [1] [0] [0] [1] [] []
  scatter_S50001x64_S802816x1_S802816x64_1_0_0_1_wf : ScatterDims.WF S50001x64 S802816x1 S802816x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S802816x64.size a
  hwx0_0 : ∀ i : grid0.Coords, EltTy.bits .f32 = 32 ∨ (Rect.block (s := S802816x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S802816x64.size a
  hwx0_1 : ∀ i : grid0.Coords, EltTy.bits .f32 = 32 ∨ (Rect.block (s := S802816x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S802816x32.size a
  hwx0_2 : ∀ i : grid0.Coords, EltTy.bits .f32 = 32 ∨ (Rect.block (s := S802816x32) S8192x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x64.size a ≤ S802816x64.size a
  hwx0_9 : ∀ i : grid0.Coords, EltTy.bits .f32 = 32 ∨ (Rect.block (s := S802816x64) S8192x64.size (cc0_transform_9 i) (hinb0_9 i)).WholeWords (EltTy.packing .f32)

variable [Facts₀]

def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def scatter_S50001x64_S802816x1_S802816x64_1_0_0_1 : ScatterDims S50001x64 S802816x1 S802816x64 where
  updateWindowDims := [1]
  insertedWindowDims := [0]
  scatterDimsToOperandDims := [0]
  indexVectorDim := 1
  wf := scatter_S50001x64_S802816x1_S802816x64_1_0_0_1_wf

abbrev win0_0 : Pipeline.Window sig grid0 :=
  Pipeline.Window.ofSpec (Memref.whole main_v8) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S8192x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x160, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The message-passing layer, stated once over plain index types.

  An edge e of the graph carries a message: the two-layer perceptron of the concatenation of its source node's features, its
  destination node's features and its own features. A node's output is the sum of the messages of the edges that point at it.
  A node index word is read the way array indexing reads it: a negative word counts from the end of the table (`wrap`), and the
  gather then takes the row the word names, clamped into the table (`rowAt`).

  The first layer is written twice: over the concatenated 160-vector (`hidCat`), and split by the three segments of its input
  (`hidSplit`); the two are one number because a finite sum over 160 terms is the sum of its three stretches.
-/
import Idealize.ShloMosaic.PureOps.Ideal
import Idealize.ShloMosaic.Lib.ValueIdx

noncomputable section

namespace EdgeConv

open Idealize.ShloMosaic Idealize.ShloMosaic.ValueIdx

/-- Edge e as a position in the edge list padded to whole blocks of 8192: the real edges come first. -/
def lo (e : Fin 800000) : Fin 802816 := ⟨e.val, by have := e.isLt; omega⟩
/-- Padding position p, behind the real edges. -/
def hi (p : Fin 2816) : Fin 802816 := ⟨800000 + p.val, by have := p.isLt; omega⟩

/-- Three vectors laid end to end: 64 + 64 + 32 entries. -/
def cat3 (a b : Fin 64 → EReal) (c : Fin 32 → EReal) : Fin 160 → EReal := fun i =>
  if h : i.val < 64 then a ⟨i.val, h⟩
  else if h2 : i.val < 128 then b ⟨i.val - 64, by omega⟩
  else c ⟨i.val - 128, by have := i.isLt; omega⟩

/-- First layer, before the rectifier, over the concatenated input: x · W1 + b1 at hidden unit k. -/
def hidCat (x : Fin 160 → EReal) (W1 : (⟨2, ![160, 64]⟩ : Shape).Idx → EReal) (b1 : (⟨1, ![64]⟩ : Shape).Idx → EReal)
    (k : Fin 64) : EReal :=
  (∑ i : Fin 160, x i * W1 (ix2 i k)) + b1 (ix1 k)

/-- First layer, before the rectifier, split by input segment: xs · Wa + xd · Wb + xe · Wc + b1 at hidden unit k. -/
def hidSplit (xs xd : Fin 64 → EReal) (xe : Fin 32 → EReal) (Wa Wb : (⟨2, ![64, 64]⟩ : Shape).Idx → EReal)
    (Wc : (⟨2, ![32, 64]⟩ : Shape).Idx → EReal) (b1 : (⟨1, ![64]⟩ : Shape).Idx → EReal) (k : Fin 64) : EReal :=
  (((∑ i : Fin 64, xs i * Wa (ix2 i k)) + (∑ i : Fin 64, xd i * Wb (ix2 i k))) + (∑ i : Fin 32, xe i * Wc (ix2 i k)))
    + b1 (ix1 k)

/-- Rectifier, then the second layer: max(h, 0) · W2 + b2 at output unit j. -/
def layer2 (h : Fin 64 → EReal) (W2 : (⟨2, ![64, 64]⟩ : Shape).Idx → EReal) (b2 : (⟨1, ![64]⟩ : Shape).Idx → EReal)
    (j : Fin 64) : EReal :=
  (∑ k : Fin 64, max (h k) 0 * W2 (ix2 k j)) + b2 (ix1 j)

/-- A node index word as indexing reads it: a negative word counts from the end of the 50000-row table. -/
def wrap (s : BitVec 32) : BitVec 32 := Scalar.select (IntOp.cmpi .slt s 0#32) (IntOp.addi s 50000#32) s

/-- The row of the 50000-row table a gather takes for an index word: the word read signed, clamped into the table. -/
def rowAt (s : BitVec 32) : Fin 50000 := ⟨min s.toInt.toNat 49999, by omega⟩

/-- The message array over the padded edge list, from the per-edge feature arrays and the split weights. -/
def msgArr (gs gd : (⟨2, ![802816, 64]⟩ : Shape).Idx → EReal) (ef : (⟨2, ![802816, 32]⟩ : Shape).Idx → EReal)
    (Wa Wb : (⟨2, ![64, 64]⟩ : Shape).Idx → EReal) (Wc : (⟨2, ![32, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![802816, 64]⟩ : Shape).Idx → EReal := fun i =>
  let e : Fin 802816 := i 0
  let j : Fin 64 := i 1
  layer2 (hidSplit (fun k => gs (ix2 e k)) (fun k => gd (ix2 e k)) (fun k => ef (ix2 e k)) Wa Wb Wc b1) W2 b2 j

/-- Edge e's message at output unit j, from the argument arrays. -/
def refMsg (nf : (⟨2, ![50000, 64]⟩ : Shape).Idx → EReal) (ef : (⟨2, ![800000, 32]⟩ : Shape).Idx → EReal)
    (src dst : (⟨1, ![800000]⟩ : Shape).Idx → BitVec 32) (W1 : (⟨2, ![160, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (e : Fin 800000) (j : Fin 64) : EReal :=
  layer2 (hidCat (cat3 (fun k => nf (ix2 (rowAt (wrap (src (ix1 e)))) k)) (fun k => nf (ix2 (rowAt (wrap (dst (ix1 e)))) k))
    (fun k => ef (ix2 e k))) W1 b1) W2 b2 j

/-- The layer's result: node n, unit j receives the messages of the edges whose destination word, read signed, is n. -/
def G (nf : (⟨2, ![50000, 64]⟩ : Shape).Idx → EReal) (ef : (⟨2, ![800000, 32]⟩ : Shape).Idx → EReal)
    (src dst : (⟨1, ![800000]⟩ : Shape).Idx → BitVec 32) (W1 : (⟨2, ![160, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![50000, 64]⟩ : Shape).Idx → EReal := fun i =>
  let n : Fin 50000 := i 0
  let j : Fin 64 := i 1
  ∑ e : Fin 800000, if (dst (ix1 e)).toInt = (n.val : ℤ) then refMsg nf ef src dst W1 b1 W2 b2 e j else 0

end EdgeConv

end
-- ==== Proof.KernelMsg.lean ====
import proofs.«408115_j74474732912710_4_alg».proof.Proof.Gen.KernelIdeal.Frame
import proofs.«408115_j74474732912710_4_alg».proof.Proof.Spec
import Idealize.ShloMosaic.Lib.Pipeline.Value
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The matrix products of the body, read at an index -/

/-- The left operand's row coordinate at an output index is the output's row. -/
private theorem lhs_wide_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- The left operand's column coordinate is the contraction index. -/
private theorem lhs_wide_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
/-- The right operand's row coordinate is the contraction index. -/
private theorem rhs_wide_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
/-- The right operand's column coordinate is the output's column. -/
private theorem rhs_wide_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The left operand's row coordinate at an output index is the output's row. -/
private theorem lhs_narrow_0 (i : S8192x64.Idx) (q : dot_S8192x32_S32x64_S8192x64_1_0_0_1_n_n.contr.Idx) :
    (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
/-- The left operand's column coordinate is the contraction index. -/
private theorem lhs_narrow_1 (i : S8192x64.Idx) (q : dot_S8192x32_S32x64_S8192x64_1_0_0_1_n_n.contr.Idx) :
    (dot_S8192x32_S32x64_S8192x64_1_0_0_1_n_n.lhsIdx i q 1).val = (q ⟨0, by decide⟩).val :=
  dot_S8192x32_S32x64_S8192x64_1_0_0_1_n_n.lhsIdx_val_of_single rfl i q
/-- The right operand's row coordinate is the contraction index. -/
private theorem rhs_narrow_0 (i : S8192x64.Idx) (q : dot_S8192x32_S32x64_S8192x64_1_0_0_1_n_n.contr.Idx) :
    (dot_S8192x32_S32x64_S8192x64_1_0_0_1_n_n.rhsIdx i q 0).val = (q ⟨0, by decide⟩).val :=
  dot_S8192x32_S32x64_S8192x64_1_0_0_1_n_n.rhsIdx_val_of_single rfl i q
/-- The right operand's column coordinate is the output's column. -/
private theorem rhs_narrow_1 (i : S8192x64.Idx) (q : dot_S8192x32_S32x64_S8192x64_1_0_0_1_n_n.contr.Idx) :
    (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- A block of 8192 rows of 64 features times a 64 × 64 matrix, accumulated into zero: entry (p, q) is the sum over the 64 features of row p times column q. -/
private theorem matmul_wide_apply (a : FVec Ideal S8192x64 .f32) (b : FVec Ideal S64x64 .f32) (p : Fin 8192) (q : Fin 64) :
    matmul dot_S8192x64_S64x64_S8192x64_1_0_0_1_n_n (some .fp32) a b (constant (F := Ideal) S8192x64 .f32 0x00000000#32) (ix2 p q)
      = ∑ k : Fin 64, a (ix2 p k) * b (ix2 k q) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p q) ((ValueIdx.contrEquiv1 dot_S8192x64_S64x64_S8192x64_1_0_0_1_n_n 64 rfl rfl).symm k) = ix2 p k := funext fun a => Fin.ext (by
    match a with
    | ⟨0, _⟩ => exact lhs_wide_0 _ _
    | ⟨1, _⟩ => exact (lhs_wide_1 _ _).trans hk)
  have er : dot_S8192x64_S64x64_S8192x64_1_0_0_1_n_n.rhsIdx (ix2 p q) ((ValueIdx.contrEquiv1 dot_S8192x64_S64x64_S8192x64_1_0_0_1_n_n 64 rfl rfl).symm k) = ix2 k q := funext fun a => Fin.ext (by
    match a with
    | ⟨0, _⟩ => exact (rhs_wide_0 _ _).trans hk
    | ⟨1, _⟩ => exact rhs_wide_1 _ _)
  rw [el, er]

/-- A block of 8192 rows of 32 features times a 32 × 64 matrix, accumulated into zero: entry (p, q) is the sum over the 32 features of row p times column q. -/
private theorem matmul_narrow_apply (a : FVec Ideal S8192x32 .f32) (b : FVec Ideal S32x64 .f32) (p : Fin 8192) (q : Fin 64) :
    matmul dot_S8192x32_S32x64_S8192x64_1_0_0_1_n_n (some .fp32) a b (constant (F := Ideal) S8192x64 .f32 0x00000000#32) (ix2 p q)
      = ∑ k : Fin 32, a (ix2 p k) * b (ix2 k q) := by
  simp only [matmul]
  rw [Ideal.matmul_constant_zero_apply, ← Equiv.sum_comp (ValueIdx.contrEquiv1 dot_S8192x32_S32x64_S8192x64_1_0_0_1_n_n 32 rfl rfl).symm]
  refine Finset.sum_congr rfl fun k _ => ?_
  have hk := ValueIdx.contrEquiv1_symm_val dot_S8192x32_S32x64_S8192x64_1_0_0_1_n_n 32 rfl rfl k
  have el : dot_S8192x32_S32x64_S8192x64_1_0_0_1_n_n.lhsIdx (ix2 p q) ((ValueIdx.contrEquiv1 dot_S8192x32_S32x64_S8192x64_1_0_0_1_n_n 32 rfl rfl).symm k) = ix2 p k := funext fun a => Fin.ext (by
    match a with
    | ⟨0, _⟩ => exact lhs_narrow_0 _ _
    | ⟨1, _⟩ => exact (lhs_narrow_1 _ _).trans hk)
  have er : dot_S8192x32_S32x64_S8192x64_1_0_0_1_n_n.rhsIdx (ix2 p q) ((ValueIdx.contrEquiv1 dot_S8192x32_S32x64_S8192x64_1_0_0_1_n_n 32 rfl rfl).symm k) = ix2 k q := funext fun a => Fin.ext (by
    match a with
    | ⟨0, _⟩ => exact (rhs_narrow_0 _ _).trans hk
    | ⟨1, _⟩ => exact rhs_narrow_1 _ _)
  rw [el, er]

/-- A bias vector of 64 entries, viewed as one row and repeated down the 8192 rows of a block, reads its entry q in every row. -/
private theorem bias_apply (b : Vec Ideal S64 .f32) (p : Fin 8192) (q : Fin 64) :
    broadcastTo S8192x64 (shapeCast S1x64 b shapeCasts_S64_S1x64) broadcasts_S1x64_S8192x64 (ix2 p q) = b (ix1 q) := by
  rw [broadcastTo_1b_ab_apply, shapeCast_a_1a_apply]

/-! ## The body's stored value at an index -/

/-- Row p, unit q of what the body stores: the two-layer perceptron of row p of the three feature blocks. The first layer is
    the three partial products added in order and then the bias; the rectifier is the maximum with zero; the second layer is
    one more product and bias. -/
private theorem pay_apply (x0 x1 : Vec Ideal S8192x64 .f32) (x2 : Vec Ideal S8192x32 .f32) (x3 x4 : Vec Ideal S64x64 .f32)
    (x5 : Vec Ideal S32x64 .f32) (x6 : Vec Ideal S64 .f32) (x7 : Vec Ideal S64x64 .f32) (x8 : Vec Ideal S64 .f32)
    (p : Fin 8192) (q : Fin 64) :
    k0_pay1 (F := Ideal) x0 x1 x2 x3 x4 x5 x6 x7 x8 (ix2 p q)
      = EdgeConv.layer2 (EdgeConv.hidSplit (fun k => x0 (ix2 p k)) (fun k => x1 (ix2 p k)) (fun k => x2 (ix2 p k)) x3 x4 x5 x6)
          x7 x8 q := by
  have hzero : (FloatOps.ofBits (F := Ideal) FTy.f32 0x00000000#32) = (0 : EReal) := Ideal.ofBits_zero_f32
  unfold k0_pay1
  simp only [shapeCast_self]
  unfold EdgeConv.layer2 EdgeConv.hidSplit
  rw [addf_apply, bias_apply, matmul_wide_apply]
  refine congrArg (· + x8 (ix1 q)) (Finset.sum_congr rfl fun k _ => ?_)
  rw [maximumf_apply, broadcast_apply, hzero, addf_apply, bias_apply, addf_apply, addf_apply, matmul_wide_apply,
    matmul_wide_apply, matmul_narrow_apply]

/-! ## From blocks to the array -/

private theorem hz2 : (![0, 0] : Fin 2 → Nat) = fun _ => 0 := funext fun a => by fin_cases a <;> rfl
private theorem hz1 : (![0] : Fin 1 → Nat) = fun _ => 0 := funext fun a => by fin_cases a <;> rfl

/-- The message array as the specification states it, of the arrays the region finds. -/
private abbrev msgG (c : Dev nD) : S802816x64.Idx → EReal :=
  EdgeConv.msgArr (V m c main_v8) (V m c main_v9) (V m c main_v5) (V m c main_v10) (V m c main_v11) (V m c main_v12)
    (V m c main_arg5) (V m c main_arg6) (V m c main_arg7)

/-- The block indices over the grid of 98 points: the three feature arrays and the message array move down their rows, block t
    at point t; the weights and biases stay at their one block. -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) :=
  (by decide +kernel : ∀ t : Fin grid0.N, _)

/-! Each window's block at a point, read off its array whatever the array holds: a block's coordinate on an axis is the block
    index times the block's extent plus the coordinate inside the block. -/

/-- Row y of the source-feature window's block at point t is row 8192·t + y of its array. -/
private theorem src_read (A : S802816x64.Idx → EReal) (t : Fin cfg0.N) (y : S8192x64.Idx) (z : S802816x64.Idx)
    (h0 : (z 0).val = t.val * 8192 + (y 0).val) (h1 : (z 1).val = (y 1).val) :
    (((cfg0.win 0).blk t).view.read (Elt Ideal) A : Vec Ideal S8192x64 .f32) y = A z := by
  obtain ⟨a0, a1⟩ := (idx_facts t).1
  show A (((cfg0.win 0).blk t).view.emb y) = A z
  refine congrArg A (funext fun a => Fin.ext ?_)
  match a with
  | ⟨0, _⟩ => show win0_0.index t (0 : Fin 2) * 8192 + 1 * (y 0).val = (z 0).val; rw [a0, h0]; omega
  | ⟨1, _⟩ => show win0_0.index t (1 : Fin 2) * 64 + 1 * (y 1).val = (z 1).val; rw [a1, h1]; omega

/-- Row y of the destination-feature window's block at point t is row 8192·t + y of its array. -/
private theorem dst_read (A : S802816x64.Idx → EReal) (t : Fin cfg0.N) (y : S8192x64.Idx) (z : S802816x64.Idx)
    (h0 : (z 0).val = t.val * 8192 + (y 0).val) (h1 : (z 1).val = (y 1).val) :
    (((cfg0.win 1).blk t).view.read (Elt Ideal) A : Vec Ideal S8192x64 .f32) y = A z := by
  obtain ⟨a0, a1⟩ := (idx_facts t).2.1
  show A (((cfg0.win 1).blk t).view.emb y) = A z
  refine congrArg A (funext fun a => Fin.ext ?_)
  match a with
  | ⟨0, _⟩ => show win0_1.index t (0 : Fin 2) * 8192 + 1 * (y 0).val = (z 0).val; rw [a0, h0]; omega
  | ⟨1, _⟩ => show win0_1.index t (1 : Fin 2) * 64 + 1 * (y 1).val = (z 1).val; rw [a1, h1]; omega

/-- Row y of the edge-feature window's block at point t is row 8192·t + y of its array. -/
private theorem edge_read (A : S802816x32.Idx → EReal) (t : Fin cfg0.N) (y : S8192x32.Idx) (z : S802816x32.Idx)
    (h0 : (z 0).val = t.val * 8192 + (y 0).val) (h1 : (z 1).val = (y 1).val) :
    (((cfg0.win 2).blk t).view.read (Elt Ideal) A : Vec Ideal S8192x32 .f32) y = A z := by
  obtain ⟨a0, a1⟩ := (idx_facts t).2.2.1
  show A (((cfg0.win 2).blk t).view.emb y) = A z
  refine congrArg A (funext fun a => Fin.ext ?_)
  match a with
  | ⟨0, _⟩ => show win0_2.index t (0 : Fin 2) * 8192 + 1 * (y 0).val = (z 0).val; rw [a0, h0]; omega
  | ⟨1, _⟩ => show win0_2.index t (1 : Fin 2) * 32 + 1 * (y 1).val = (z 1).val; rw [a1, h1]; omega

/-- The window of the first weight slice has one block, the whole array, at every point. -/
private theorem wa_read (A : S64x64.Idx → EReal) (t : Fin cfg0.N) :
    (((cfg0.win 3).blk t).view.read (Elt Ideal) A : Vec Ideal S64x64 .f32) = A := by
  obtain ⟨a0, a1⟩ := (idx_facts t).2.2.2.1
  funext y
  show A (((cfg0.win 3).blk t).view.emb y) = A y
  refine congrArg A (funext fun a => Fin.ext ?_)
  match a with
  | ⟨0, _⟩ => show win0_3.index t (0 : Fin 2) * 64 + 1 * (y 0).val = (y 0).val; rw [a0]; omega
  | ⟨1, _⟩ => show win0_3.index t (1 : Fin 2) * 64 + 1 * (y 1).val = (y 1).val; rw [a1]; omega

/-- The window of the second weight slice has one block, the whole array. -/
private theorem wb_read (A : S64x64.Idx → EReal) (t : Fin cfg0.N) :
    (((cfg0.win 4).blk t).view.read (Elt Ideal) A : Vec Ideal S64x64 .f32) = A := by
  obtain ⟨a0, a1⟩ := (idx_facts t).2.2.2.2.1
  funext y
  show A (((cfg0.win 4).blk t).view.emb y) = A y
  refine congrArg A (funext fun a => Fin.ext ?_)
  match a with
  | ⟨0, _⟩ => show win0_4.index t (0 : Fin 2) * 64 + 1 * (y 0).val = (y 0).val; rw [a0]; omega
  | ⟨1, _⟩ => show win0_4.index t (1 : Fin 2) * 64 + 1 * (y 1).val = (y 1).val; rw [a1]; omega

/-- The window of the third weight slice has one block, the whole array. -/
private theorem wc_read (A : S32x64.Idx → EReal) (t : Fin cfg0.N) :
    (((cfg0.win 5).blk t).view.read (Elt Ideal) A : Vec Ideal S32x64 .f32) = A := by
  obtain ⟨a0, a1⟩ := (idx_facts t).2.2.2.2.2.1
  funext y
  show A (((cfg0.win 5).blk t).view.emb y) = A y
  refine congrArg A (funext fun a => Fin.ext ?_)
  match a with
  | ⟨0, _⟩ => show win0_5.index t (0 : Fin 2) * 32 + 1 * (y 0).val = (y 0).val; rw [a0]; omega
  | ⟨1, _⟩ => show win0_5.index t (1 : Fin 2) * 64 + 1 * (y 1).val = (y 1).val; rw [a1]; omega

/-- The first bias's window has one block, the whole vector. -/
private theorem b1_read (A : S64.Idx → EReal) (t : Fin cfg0.N) :
    (((cfg0.win 6).blk t).view.read (Elt Ideal) A : Vec Ideal S64 .f32) = A := by
  have a0 := (idx_facts t).2.2.2.2.2.2.1
  funext y
  show A (((cfg0.win 6).blk t).view.emb y) = A y
  refine congrArg A (funext fun a => Fin.ext ?_)
  match a with
  | ⟨0, _⟩ => show win0_6.index t (0 : Fin 1) * 64 + 1 * (y 0).val = (y 0).val; rw [a0]; omega

/-- The second weight matrix's window has one block, the whole array. -/
private theorem w2_read (A : S64x64.Idx → EReal) (t : Fin cfg0.N) :
    (((cfg0.win 7).blk t).view.read (Elt Ideal) A : Vec Ideal S64x64 .f32) = A := by
  obtain ⟨a0, a1⟩ := (idx_facts t).2.2.2.2.2.2.2.1
  funext y
  show A (((cfg0.win 7).blk t).view.emb y) = A y
  refine congrArg A (funext fun a => Fin.ext ?_)
  match a with
  | ⟨0, _⟩ => show win0_7.index t (0 : Fin 2) * 64 + 1 * (y 0).val = (y 0).val; rw [a0]; omega
  | ⟨1, _⟩ => show win0_7.index t (1 : Fin 2) * 64 + 1 * (y 1).val = (y 1).val; rw [a1]; omega

/-- The second bias's window has one block, the whole vector. -/
private theorem b2_read (A : S64.Idx → EReal) (t : Fin cfg0.N) :
    (((cfg0.win 8).blk t).view.read (Elt Ideal) A : Vec Ideal S64 .f32) = A := by
  have a0 := (idx_facts t).2.2.2.2.2.2.2.2.1
  funext y
  show A (((cfg0.win 8).blk t).view.emb y) = A y
  refine congrArg A (funext fun a => Fin.ext ?_)
  match a with
  | ⟨0, _⟩ => show win0_8.index t (0 : Fin 1) * 64 + 1 * (y 0).val = (y 0).val; rw [a0]; omega

/-- A stored block X is block t of an array G as soon as each entry of X is G at the entry's place: row 8192·t + the row inside
    the block, the same column. -/
private theorem out_blk_eq (X : Vec Ideal S8192x64 .f32) (G : S802816x64.Idx → EReal) (t : Fin cfg0.N)
    (h : ∀ (j : S8192x64.Idx) (i : S802816x64.Idx), (i 0).val = t.val * 8192 + (j 0).val → (i 1).val = (j 1).val → X j = G i) :
    (cfg0.win 9).cut (grid0.coords t) X = ((cfg0.win 9).blk t).view.read (Elt Ideal) G := by
  obtain ⟨a0, a1⟩ := (idx_facts t).2.2.2.2.2.2.2.2.2
  funext j
  show X j = G (((cfg0.win 9).blk t).view.emb j)
  refine h j _ ?_ ?_
  · show win0_9.index t (0 : Fin 2) * 8192 + 1 * (j 0).val = _; rw [a0]; omega
  · show win0_9.index t (1 : Fin 2) * 64 + 1 * (j 1).val = _; rw [a1]; omega

/-- One entry of what a point stores is the specification's message at the entry's place in the array, as soon as the three
    feature blocks hold, row for row, the rows of their arrays at that place, and the small blocks are their arrays. -/
private theorem point_eq (x0 x1 : Vec Ideal S8192x64 .f32) (x2 : Vec Ideal S8192x32 .f32) (x3 x4 : Vec Ideal S64x64 .f32)
    (x5 : Vec Ideal S32x64 .f32) (x6 : Vec Ideal S64 .f32) (x7 : Vec Ideal S64x64 .f32) (x8 : Vec Ideal S64 .f32)
    (gs gd : S802816x64.Idx → EReal) (ef : S802816x32.Idx → EReal) (Wa Wb : S64x64.Idx → EReal) (Wc : S32x64.Idx → EReal)
    (b1 : S64.Idx → EReal) (W2 : S64x64.Idx → EReal) (b2 : S64.Idx → EReal)
    (j : S8192x64.Idx) (i : S802816x64.Idx)
    (h0 : ∀ (y : S8192x64.Idx) (z : S802816x64.Idx), (y 0).val = (j 0).val → (z 0).val = (i 0).val → (z 1).val = (y 1).val → x0 y = gs z)
    (h1 : ∀ (y : S8192x64.Idx) (z : S802816x64.Idx), (y 0).val = (j 0).val → (z 0).val = (i 0).val → (z 1).val = (y 1).val → x1 y = gd z)
    (h2 : ∀ (y : S8192x32.Idx) (z : S802816x32.Idx), (y 0).val = (j 0).val → (z 0).val = (i 0).val → (z 1).val = (y 1).val → x2 y = ef z)
    (h3 : x3 = Wa) (h4 : x4 = Wb) (h5 : x5 = Wc) (h6 : x6 = b1) (h7 : x7 = W2) (h8 : x8 = b2)
    (hj : (i 1).val = (j 1).val) :
    k0_pay1 (F := Ideal) x0 x1 x2 x3 x4 x5 x6 x7 x8 j = EdgeConv.msgArr gs gd ef Wa Wb Wc b1 W2 b2 i := by
  subst h3 h4 h5 h6 h7 h8
  obtain ⟨p, q, rfl⟩ : ∃ (p : Fin 8192) (q : Fin 64), j = ix2 p q := ⟨j 0, j 1, eq_ix2 j⟩
  obtain ⟨e, r, rfl⟩ : ∃ (e : Fin 802816) (r : Fin 64), i = ix2 e r := ⟨i 0, i 1, eq_ix2 i⟩
  obtain rfl : r = q := Fin.ext hj
  rw [pay_apply]
  show EdgeConv.layer2 (EdgeConv.hidSplit (fun k => x0 (ix2 p k)) (fun k => x1 (ix2 p k)) (fun k => x2 (ix2 p k)) x3 x4 x5 x6) x7 x8 r
    = EdgeConv.layer2 (EdgeConv.hidSplit (fun k => gs (ix2 e k)) (fun k => gd (ix2 e k)) (fun k => ef (ix2 e k)) x3 x4 x5 x6) x7 x8 r
  rw [show (fun k : Fin 64 => x0 (ix2 p k)) = fun k => gs (ix2 e k) from funext fun k => h0 (ix2 p k) (ix2 e k) rfl rfl rfl,
    show (fun k : Fin 64 => x1 (ix2 p k)) = fun k => gd (ix2 e k) from funext fun k => h1 (ix2 p k) (ix2 e k) rfl rfl rfl,
    show (fun k : Fin 32 => x2 (ix2 p k)) = fun k => ef (ix2 e k) from funext fun k => h2 (ix2 p k) (ix2 e k) rfl rfl rfl]

/-- What point t writes back is block t of the message array: rows 8192·t … 8192·t + 8191. -/
private theorem flushed_eq (c : Dev nD) (t : Fin cfg0.N) :
    (dats m 0 c).flushed 9 t = ((cfg0.win 9).blk t).view.read (Elt Ideal) (msgG m c) := by
  show (cfg0.win 9).cut (grid0.coords t) ((dats m 0 c).after 9 t) = _
  rw [after0_9]
  unfold out0_9
  rw [View.canon_unit_zero hz2]
  simp only [View.ld_unit_zero (S := S8192x64) hz2, View.ld_unit_zero (S := S8192x32) hz2, View.ld_unit_zero (S := S64x64) hz2,
    View.ld_unit_zero (S := S32x64) hz2, View.ld_unit_zero (S := S64) hz1]
  exact out_blk_eq (k0_pay1 (F := Ideal) (iblk m c 0 t) (iblk m c 1 t) (iblk m c 2 t) (iblk m c 3 t) (iblk m c 4 t) (iblk m c 5 t) (iblk m c 6 t) (iblk m c 7 t) (iblk m c 8 t)) (msgG m c) t fun j i hr hc =>
    point_eq (iblk m c 0 t) (iblk m c 1 t) (iblk m c 2 t) (iblk m c 3 t) (iblk m c 4 t) (iblk m c 5 t) (iblk m c 6 t) (iblk m c 7 t) (iblk m c 8 t)
      (V m c main_v8) (V m c main_v9) (V m c main_v5) (V m c main_v10) (V m c main_v11) (V m c main_v12) (V m c main_arg5) (V m c main_arg6) (V m c main_arg7) j i
      (fun y z hy hz hz1 => src_read (V m c main_v8) t y z (by rw [hz, hr, hy]) hz1)
      (fun y z hy hz hz1 => dst_read (V m c main_v9) t y z (by rw [hz, hr, hy]) hz1)
      (fun y z hy hz hz1 => edge_read (V m c main_v5) t y z (by rw [hz, hr, hy]) hz1)
      (wa_read (V m c main_v10) t) (wb_read (V m c main_v11) t) (wc_read (V m c main_v12) t) (b1_read (V m c main_arg5) t)
      (w2_read (V m c main_arg6) t) (b2_read (V m c main_arg7) t) hc

/-- An index of the message array is in point t's block iff each coordinate is in the block's range on its axis. -/
private theorem mem_blk (t : Fin cfg0.N) (i : S802816x64.Idx) :
    i ∈ ((cfg0.win 9).blk t).view.set ↔ ∀ a : Fin 2, win0_9.index t a * S8192x64.size a ≤ (i a).val ∧ (i a).val < win0_9.index t a * S8192x64.size a + S8192x64.size a := by
  show i ∈ ((View.whole main_v13).slice (win0_9.rect t)).set ↔ _
  rw [View.set_slice_whole, Rect.mem_set_unit]
  exact Iff.rfl

/-- Every padded edge is in some point's block: row r is written at point r / 8192. -/
private theorem cover (i : S802816x64.Idx) :
    ∃ t : Fin cfg0.N, (cfg0.win 9).flush t = true ∧ i ∈ ((cfg0.win 9).blk t).view.set := by
  have hi0 : (i 0).val < 802816 := (i 0).isLt
  have hi1 : (i 1).val < 64 := (i 1).isLt
  have hN : cfg0.N = 98 := N_0
  obtain ⟨t, ht⟩ : ∃ t : Fin cfg0.N, t.val = (i 0).val / 8192 := ⟨⟨(i 0).val / 8192, by rw [hN]; omega⟩, rfl⟩
  obtain ⟨a0, a1⟩ := (idx_facts t).2.2.2.2.2.2.2.2.2
  refine ⟨t, flush0_9 t, ?_⟩
  rw [mem_blk]
  intro a
  match a with
  | ⟨0, _⟩ => show win0_9.index t (0 : Fin 2) * 8192 ≤ (i 0).val ∧ (i 0).val < win0_9.index t (0 : Fin 2) * 8192 + 8192; rw [a0, ht]; omega
  | ⟨1, _⟩ => show win0_9.index t (1 : Fin 2) * 64 ≤ (i 1).val ∧ (i 1).val < win0_9.index t (1 : Fin 2) * 64 + 64; rw [a1]; omega

/-- After the region, the message array holds, at every padded edge and output unit, the two-layer perceptron of that edge's
    rows of the three staged feature arrays, with the three slices of the first weight matrix. -/
theorem msgs_eq (c : Dev nD) :
    (dats m 0 c).arrAt 9 cfg0.N
      = EdgeConv.msgArr (V m c main_v8) (V m c main_v9) (V m c main_v5) (V m c main_v10) (V m c main_v11) (V m c main_v12)
          (V m c main_arg5) (V m c main_arg6) (V m c main_arg7) :=
  (dats m 0 c).arrAt_eq_of_cover 9 (msgG m c) (fun t _ => flushed_eq m c t) cover

end Cert.KernelIdeal.KVal

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KernelTake.lean ====
import proofs.«408115_j74474732912710_4_alg».proof.Proof.Gen.KernelIdeal.Frame
import proofs.«408115_j74474732912710_4_alg».proof.Proof.Spec
import proofs.«408115_j74474732912710_4_alg».proof.Proof.LibRows
import Idealize.ShloMosaic.Lib.Pipeline.Value
import Idealize.ShloMosaic.Lib.StableHlo.Run
import Idealize.ShloMosaic.Lib.ReduceAll

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! The two row gathers before the region. Each lowers to the same chain: wrap the index words that are negative, test
    that the wrapped word lies in the table, gather the table's rows at the wrapped words, and keep a gathered row where
    the test holds (a NaN row elsewhere). The chain is named once (`takeRows`) and read at an index once
    (`takeRows_apply`); the two gathers are that chain at the padded source words and at the cut padded destination
    words. -/

/-- Each index word, a negative one counted from the end of the table. -/
private def wrapWords (w : S802816.Idx → BitVec 32) : S802816.Idx → BitVec 32 :=
  select (cmpi .slt w (broadcastInDim S802816 ![] bcast_S_S802816 (constantI S_ 32 0#32)))
    (addi w (broadcastInDim S802816 ![] bcast_S_S802816 (constantI S_ 32 50000#32))) w

/-- The wrapped words as a one-column matrix of start indices. -/
private def colWords (w : S802816.Idx → BitVec 32) : S802816x1.Idx → BitVec 32 :=
  broadcastInDim S802816x1 ![0] bcast_S802816_S802816x1_0 (wrapWords w)

/-- Entry by entry: the start index lies in the table, 0 ≤ v ≤ 49999 signed. -/
private def inTable (v : S802816x1.Idx → BitVec 32) : S802816x1.Idx → BitVec 1 :=
  andi (cmpi .sge v (broadcastInDim S802816x1 ![] bcast_S_S802816x1 (constantI S_ 32 0#32)))
    (cmpi .sle v (broadcastInDim S802816x1 ![0, 1] bcast_S1x1_S802816x1_0_1
      (broadcastInDim S1x1 ![1] bcast_S1_S1x1_1 (constantI S1 32 49999#32))))

/-- Row by row: every start index of the row (there is one) lies in the table. -/
private def rowMask (w : S802816.Idx → BitVec 32) : S802816.Idx → BitVec 1 :=
  Host.reduce IntOp.andi (inTable (colWords w)) (constantI S_ 1 1#1) reducesTo_S802816x1_S802816_d1 h_S_

/-- The lowered row take of the node table `x` at the index words `w`. -/
private def takeRows (x : S50000x64.Idx → EReal) (w : S802816.Idx → BitVec 32) : S802816x64.Idx → EReal :=
  select (broadcastInDim S802816x64 ![0] bcast_S802816_S802816x64_0 (rowMask w))
    (Host.gather gather_S50000x64_S802816x1_S802816x64_1_0_n_n_0_1_164 x (colWords w))
    (broadcastInDim S802816x64 ![] bcast_S_S802816x64 (constant (F := Ideal) S_ .f32 0x7FC00000#32))

/-- A fold over the one-element range is one application. -/
private theorem fold_fin1 (f : BitVec 1 → BitVec 1 → BitVec 1) [Std.Commutative f] [Std.Associative f] (b : BitVec 1)
    (g : Fin 1 → BitVec 1) : (Finset.univ : Finset (Fin 1)).fold f b g = f (g 0) b := by
  rw [Finset.univ_unique, Finset.fold_singleton]
  rfl

/-- The start index of row p is p's word, wrapped. -/
private theorem colWords_apply (w : S802816.Idx → BitVec 32) (p : Fin 802816) :
    colWords w (ix2 p (0 : Fin 1)) = EdgeConv.wrap (w (ix1 p)) := by
  unfold colWords
  rw [broadcastInDim_apply ![0] bcast_S802816_S802816x1_0 (wrapWords w) (ix2 p (0 : Fin 1)) (ix1 p)
    (by intro a; match a with | ⟨0, _⟩ => rfl)]
  rfl

/-- Where the wrapped word lies in the table the row's mask bit is set. -/
private theorem rowMask_apply (w : S802816.Idx → BitVec 32) (p : Fin 802816)
    (hge : IntOp.cmpi .sge (EdgeConv.wrap (w (ix1 p))) 0#32 = 1#1)
    (hle : IntOp.cmpi .sle (EdgeConv.wrap (w (ix1 p))) 49999#32 = 1#1) :
    rowMask w (ix1 p) = 1#1 := by
  have hred : S802816x1.Reduces [1] S802816 := by decide
  have hl : hred.lift (ix1 p) (0 : Fin 1) = ix2 p (0 : Fin 1) := by
    funext a
    match a with
    | ⟨0, _⟩ => rfl
    | ⟨1, _⟩ => rfl
  unfold rowMask
  rw [Host.reduce_eq_fold_single IntOp.andi _ _ reducesTo_S802816x1_S802816_d1 hred h_S_ (ix1 p)]
  refine (fold_fin1 _ _ _).trans ?_
  show IntOp.andi (inTable (colWords w) (hred.lift (ix1 p) (0 : Fin 1))) 1#1 = 1#1
  rw [hl]
  show IntOp.andi (IntOp.andi (IntOp.cmpi .sge (colWords w (ix2 p (0 : Fin 1))) 0#32)
    (IntOp.cmpi .sle (colWords w (ix2 p (0 : Fin 1))) 49999#32)) 1#1 = 1#1
  rw [colWords_apply, hge, hle]
  rfl

/-- The take at row p, column k: where p's wrapped word lies in the table, the table's row that word names. -/
private theorem takeRows_apply (x : S50000x64.Idx → EReal) (w : S802816.Idx → BitVec 32) (p : Fin 802816) (k : Fin 64)
    (hge : IntOp.cmpi .sge (EdgeConv.wrap (w (ix1 p))) 0#32 = 1#1)
    (hle : IntOp.cmpi .sle (EdgeConv.wrap (w (ix1 p))) 49999#32 = 1#1) :
    takeRows x w (ix2 p k) = x (ix2 (EdgeConv.rowAt (EdgeConv.wrap (w (ix1 p)))) k) := by
  unfold takeRows
  rw [select_apply, broadcastInDim_apply ![0] bcast_S802816_S802816x64_0 (rowMask w) (ix2 p k) (ix1 p)
    (by intro a; match a with | ⟨0, _⟩ => rfl), rowMask_apply w p hge hle, select_one,
    Gcn.Rows.gather_rows gather_S50000x64_S802816x1_S802816x64_1_0_n_n_0_1_164 rfl rfl rfl rfl rfl rfl x (colWords w) p k
      (by decide)]
  refine congrArg x (congrArg (fun r => ix2 r k) (Fin.ext ?_))
  show min (colWords w (ix2 p (0 : Fin 1))).toInt.toNat (50000 - 1) = min (EdgeConv.wrap (w (ix1 p))).toInt.toNat 49999
  rw [colWords_apply]

/-- A value moved into a typed reference's buffer and read back is the value. -/
private theorem ofBuf_toBuf {T : BufTy} (x : StableHlo.TRef sig T) (v : T.Contents (Elt Ideal)) :
    x.ofBuf (x.toBuf v) = v := by
  obtain ⟨r, h, h2, h3⟩ := x
  subst h
  rfl

/-! The buffers after each stretch of host operations, over an arbitrary valuation `W` of the buffers before it. -/

/-- The padded source words: the source words, then 2816 zeros. -/
private theorem v1_eq (W : Valuation τ sig (Elt Ideal)) :
    (StableHlo.after (hostOps0 (F := Ideal)) W (Proc.devRef .tc main_v1) : S802816.Idx → BitVec 32)
      = concatenate S802816 0 [⟨S800000, W (Proc.devRef .tc main_arg2)⟩,
          ⟨S2816, broadcastInDim S2816 ![] bcast_S_S2816 (constantI S_ 32 0#32)⟩] concatenates_S800000_S2816_S802816_d0 := by
  simp only [Gen.hostOps0]
  after_results

/-- The cut padded destination words: the destination words, then 2816 words 50000, each cut at 49999. -/
private theorem v7_eq (W : Valuation τ sig (Elt Ideal)) :
    (StableHlo.after (hostOps0 (F := Ideal)) W (Proc.devRef .tc main_v7) : S802816.Idx → BitVec 32)
      = minsi (concatenate S802816 0 [⟨S800000, W (Proc.devRef .tc main_arg3)⟩,
          ⟨S2816, broadcastInDim S2816 ![] bcast_S_S2816 (constantI S_ 32 50000#32)⟩] concatenates_S800000_S2816_S802816_d0)
          (broadcastInDim S802816 ![] bcast_S_S802816 (constantI S_ 32 49999#32)) := by
  simp only [Gen.hostOps0]
  after_results

/-- The first stretch leaves the node table as it was. -/
private theorem arg0_keep0 (W : Valuation τ sig (Elt Ideal)) :
    StableHlo.after (hostOps0 (F := Ideal)) W (Proc.devRef .tc main_arg0) = W (Proc.devRef .tc main_arg0) := by
  simp only [Gen.hostOps0]
  after_results

set_option maxRecDepth 16384 in
set_option maxHeartbeats 1600000 in
/-- The first gather is the row take of the node table at the padded source words. -/
private theorem v8_eq (W : Valuation τ sig (Elt Ideal)) :
    (StableHlo.after (hostOps0_1 (F := Ideal)) W (Proc.devRef .tc main_v8) : S802816x64.Idx → EReal)
      = takeRows (W (Proc.devRef .tc main_arg0)) (W (Proc.devRef .tc main_v1)) := by
  simp only [Gen.hostOps0_1]
  after_results
  repeat rw [ofBuf_toBuf]
  have hv1 : (StableHlo.TRef.of main_v1 : StableHlo.TRef sig ⟨S802816, .i32⟩).ofBuf (W (Proc.devRef .tc main_v1))
      = W (Proc.devRef .tc main_v1) := rfl
  have ha0 : (StableHlo.TRef.of main_arg0 : StableHlo.TRef sig ⟨S50000x64, .f32⟩).ofBuf (W (Proc.devRef .tc main_arg0))
      = W (Proc.devRef .tc main_arg0) := rfl
  have hv8 : ∀ v, (StableHlo.TRef.of main_v8 : StableHlo.TRef sig ⟨S802816x64, .f32⟩).toBuf (Val := Elt Ideal) v = v := fun _ => rfl
  rw [hv1, ha0, hv8]
  unfold takeRows rowMask inTable colWords wrapWords
  rfl

/-- The first gather's stretch leaves the node table as it was. -/
private theorem arg0_keep1 (W : Valuation τ sig (Elt Ideal)) :
    StableHlo.after (hostOps0_1 (F := Ideal)) W (Proc.devRef .tc main_arg0) = W (Proc.devRef .tc main_arg0) := by
  simp only [Gen.hostOps0_1]
  after_results

/-- The first gather's stretch leaves the cut padded destination words as they were. -/
private theorem v7_keep1 (W : Valuation τ sig (Elt Ideal)) :
    StableHlo.after (hostOps0_1 (F := Ideal)) W (Proc.devRef .tc main_v7) = W (Proc.devRef .tc main_v7) := by
  simp only [Gen.hostOps0_1]
  after_results

/-- The second gather's stretch leaves the first gather's result as it was. -/
private theorem v8_keep2 (W : Valuation τ sig (Elt Ideal)) :
    StableHlo.after (hostOps0_2 (F := Ideal)) W (Proc.devRef .tc main_v8) = W (Proc.devRef .tc main_v8) := by
  simp only [Gen.hostOps0_2]
  after_results

set_option maxRecDepth 16384 in
set_option maxHeartbeats 1600000 in
/-- The second gather is the row take of the node table at the cut padded destination words. -/
private theorem v9_eq (W : Valuation τ sig (Elt Ideal)) :
    (StableHlo.after (hostOps0_2 (F := Ideal)) W (Proc.devRef .tc main_v9) : S802816x64.Idx → EReal)
      = takeRows (W (Proc.devRef .tc main_arg0)) (W (Proc.devRef .tc main_v7)) := by
  simp only [Gen.hostOps0_2]
  after_results
  repeat rw [ofBuf_toBuf]
  have hv7 : (StableHlo.TRef.of main_v7 : StableHlo.TRef sig ⟨S802816, .i32⟩).ofBuf (W (Proc.devRef .tc main_v7))
      = W (Proc.devRef .tc main_v7) := rfl
  have ha0 : (StableHlo.TRef.of main_arg0 : StableHlo.TRef sig ⟨S50000x64, .f32⟩).ofBuf (W (Proc.devRef .tc main_arg0))
      = W (Proc.devRef .tc main_arg0) := rfl
  have hv9 : ∀ v, (StableHlo.TRef.of main_v9 : StableHlo.TRef sig ⟨S802816x64, .f32⟩).toBuf (Val := Elt Ideal) v = v := fun _ => rfl
  rw [hv7, ha0, hv9]
  unfold takeRows rowMask inTable colWords wrapWords
  rfl

/-- The weight slices' stretch leaves the first gather's result as it was. -/
private theorem v8_keep3 (W : Valuation τ sig (Elt Ideal)) :
    StableHlo.after (hostOps0_3 (F := Ideal)) W (Proc.devRef .tc main_v8) = W (Proc.devRef .tc main_v8) := by
  simp only [Gen.hostOps0_3]
  after_results

/-- The weight slices' stretch leaves the second gather's result as it was. -/
private theorem v9_keep3 (W : Valuation τ sig (Elt Ideal)) :
    StableHlo.after (hostOps0_3 (F := Ideal)) W (Proc.devRef .tc main_v9) = W (Proc.devRef .tc main_v9) := by
  simp only [Gen.hostOps0_3]
  after_results

/-- The buffers when the region is entered: the four stretches one after the other. -/
private theorem V_split (c : Dev nD) (b : Ref sig .tc) :
    V m c b = StableHlo.after (hostOps0_3 (F := Ideal)) (StableHlo.after hostOps0_2 (StableHlo.after hostOps0_1
      (StableHlo.after hostOps0 (fun b => m (c, b))))) (Proc.devRef .tc b) := by
  simp only [Gen.V, Gen.V0, List.flatten_cons, List.flatten_nil, List.append_nil, StableHlo.after_append]

/-- An edge's position in the padded list is among the real edges: the padded words there are the edge's own. -/
private theorem pad_lo (a : S800000.Idx → BitVec 32) (z : S2816.Idx → BitVec 32) (e : Fin 800000) :
    concatenate S802816 0 [⟨S800000, a⟩, ⟨S2816, z⟩] concatenates_S800000_S2816_S802816_d0 (ix1 (EdgeConv.lo e)) = a (ix1 e) :=
  concatenate_pair_apply_left (0 : Fin 1) a z concatenates_S800000_S2816_S802816_d0 (ix1 (EdgeConv.lo e)) rfl (ix1 e)
    (by intro b; match b with | ⟨0, _⟩ => rfl)

/-- The gathered source rows: where the wrapped source word lies in the table, edge e's row is the node row it names. -/
theorem V_v8_lo (c : Dev nD) (e : Fin 800000) (k : Fin 64)
    (hge : IntOp.cmpi .sge (EdgeConv.wrap (m ((c : Thread nD τ).loc main_arg2) (ix1 e))) 0#32 = 1#1)
    (hle : IntOp.cmpi .sle (EdgeConv.wrap (m ((c : Thread nD τ).loc main_arg2) (ix1 e))) 49999#32 = 1#1) :
    V m c main_v8 (ix2 (EdgeConv.lo e) k)
      = m ((c : Thread nD τ).loc main_arg0) (ix2 (EdgeConv.rowAt (EdgeConv.wrap (m ((c : Thread nD τ).loc main_arg2) (ix1 e)))) k) := by
  -- the padded source word at edge e's position is e's source word
  have hw : (StableHlo.after (hostOps0 (F := Ideal)) (fun b => m (c, b)) (Proc.devRef .tc main_v1) : S802816.Idx → BitVec 32)
      (ix1 (EdgeConv.lo e)) = m ((c : Thread nD τ).loc main_arg2) (ix1 e) := by
    rw [v1_eq]
    exact pad_lo _ _ e
  rw [V_split, v8_keep3, v8_keep2, v8_eq, arg0_keep0]
  refine (takeRows_apply _ _ (EdgeConv.lo e) k ?_ ?_).trans ?_
  · rw [hw]; exact hge
  · rw [hw]; exact hle
  · rw [hw]

/-- The gathered destination rows: the destination word is first cut at the last row, then wrapped; where that lies in the
    table, edge e's row is the node row it names. -/
theorem V_v9_lo (c : Dev nD) (e : Fin 800000) (k : Fin 64)
    (hge : IntOp.cmpi .sge (EdgeConv.wrap (IntOp.minsi (m ((c : Thread nD τ).loc main_arg3) (ix1 e)) 49999#32)) 0#32 = 1#1)
    (hle : IntOp.cmpi .sle (EdgeConv.wrap (IntOp.minsi (m ((c : Thread nD τ).loc main_arg3) (ix1 e)) 49999#32)) 49999#32 = 1#1) :
    V m c main_v9 (ix2 (EdgeConv.lo e) k)
      = m ((c : Thread nD τ).loc main_arg0)
          (ix2 (EdgeConv.rowAt (EdgeConv.wrap (IntOp.minsi (m ((c : Thread nD τ).loc main_arg3) (ix1 e)) 49999#32))) k) := by
  -- the cut padded destination word at edge e's position is e's destination word, cut at the last row
  have hw : (StableHlo.after (hostOps0 (F := Ideal)) (fun b => m (c, b)) (Proc.devRef .tc main_v7) : S802816.Idx → BitVec 32)
      (ix1 (EdgeConv.lo e)) = IntOp.minsi (m ((c : Thread nD τ).loc main_arg3) (ix1 e)) 49999#32 := by
    rw [v7_eq]
    exact congrArg (fun t => IntOp.minsi t 49999#32) (pad_lo _ _ e)
  rw [V_split, v9_keep3, v9_eq, arg0_keep1, arg0_keep0, v7_keep1]
  refine (takeRows_apply _ _ (EdgeConv.lo e) k ?_ ?_).trans ?_
  · rw [hw]; exact hge
  · rw [hw]; exact hle
  · rw [hw]

end Cert.KernelIdeal.KVal

end
-- ==== Proof.KernelPad.lean ====
import proofs.«408115_j74474732912710_4_alg».proof.Proof.Gen.KernelIdeal.Frame
import proofs.«408115_j74474732912710_4_alg».proof.Proof.Spec
import Idealize.ShloMosaic.Lib.Pipeline.Value
import Idealize.ShloMosaic.Lib.ValueLayout
import Idealize.ShloMosaic.Lib.StableHlo.Run

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The padded destination words as one term: the 800000 argument words, then 2816 copies of the word 50000. -/
private theorem V_v3_eq (c : Dev nD) :
    (V m c main_v3 : (⟨1, ![802816]⟩ : Shape).Idx → BitVec 32) =
      concatenate S802816 0 [⟨S800000, m ((c : Thread nD τ).loc main_arg3)⟩,
        ⟨S2816, broadcastInDim S2816 ![] bcast_S_S2816 (constantI S_ 32 50000#32)⟩]
        concatenates_S800000_S2816_S802816_d0 := by
  dsimp only [Gen.V, Gen.V0]
  simp only [Gen.hostOps0, Gen.hostOps0_1, Gen.hostOps0_2, Gen.hostOps0_3, List.flatten_cons, List.flatten_nil,
    List.append_nil, List.cons_append, List.nil_append]
  after_results

/-- The padded edge features as one term: the 800000 argument rows, then 2816 rows of zeros. -/
private theorem V_v5_eq (c : Dev nD) :
    (V m c main_v5 : (⟨2, ![802816, 32]⟩ : Shape).Idx → EReal) =
      concatenate S802816x32 0 [⟨S800000x32, m ((c : Thread nD τ).loc main_arg1)⟩,
        ⟨S2816x32, broadcastInDim S2816x32 ![] bcast_S_S2816x32 (constant (F := Ideal) S_ .f32 0x00000000#32)⟩]
        concatenates_S800000x32_S2816x32_S802816x32_d0 := by
  dsimp only [Gen.V, Gen.V0]
  simp only [Gen.hostOps0, Gen.hostOps0_1, Gen.hostOps0_2, Gen.hostOps0_3, List.flatten_cons, List.flatten_nil,
    List.append_nil, List.cons_append, List.nil_append]
  after_results

/-- The first-layer weight rows 0–63 as a cut of the 160-row matrix along its rows. -/
private theorem V_v10_eq (c : Dev nD) :
    (V m c main_v10 : (⟨2, ![64, 64]⟩ : Shape).Idx → EReal) =
      extractStridedSlice S64x64 ![0, 0] (m ((c : Thread nD τ).loc main_arg4)) slices_S160x64_S64x64_0_0 := by
  dsimp only [Gen.V, Gen.V0]
  simp only [Gen.hostOps0, Gen.hostOps0_1, Gen.hostOps0_2, Gen.hostOps0_3, List.flatten_cons, List.flatten_nil,
    List.append_nil, List.cons_append, List.nil_append]
  after_results

/-- The first-layer weight rows 64–127 as a cut of the 160-row matrix along its rows. -/
private theorem V_v11_eq (c : Dev nD) :
    (V m c main_v11 : (⟨2, ![64, 64]⟩ : Shape).Idx → EReal) =
      extractStridedSlice S64x64 ![64, 0] (m ((c : Thread nD τ).loc main_arg4)) slices_S160x64_S64x64_64_0 := by
  dsimp only [Gen.V, Gen.V0]
  simp only [Gen.hostOps0, Gen.hostOps0_1, Gen.hostOps0_2, Gen.hostOps0_3, List.flatten_cons, List.flatten_nil,
    List.append_nil, List.cons_append, List.nil_append]
  after_results

/-- The first-layer weight rows 128–159 as a cut of the 160-row matrix along its rows. -/
private theorem V_v12_eq (c : Dev nD) :
    (V m c main_v12 : (⟨2, ![32, 64]⟩ : Shape).Idx → EReal) =
      extractStridedSlice S32x64 ![128, 0] (m ((c : Thread nD τ).loc main_arg4)) slices_S160x64_S32x64_128_0 := by
  dsimp only [Gen.V, Gen.V0]
  simp only [Gen.hostOps0, Gen.hostOps0_1, Gen.hostOps0_2, Gen.hostOps0_3, List.flatten_cons, List.flatten_nil,
    List.append_nil, List.cons_append, List.nil_append]
  after_results

/-- The padded destination words: the real edges keep theirs, -/
theorem V_v3_lo (c : Dev nD) (e : Fin 800000) :
    V m c main_v3 (ix1 (EdgeConv.lo e)) = m ((c : Thread nD τ).loc main_arg3) (ix1 e) := by
  -- position e < 800000 falls in the first piece of the concatenation, at the same position
  refine (congrFun (V_v3_eq m c) (ix1 (EdgeConv.lo e))).trans ?_
  exact concatenate_pair_apply_left (t := S802816) (s₁ := S800000) (s₂ := S2816) (0 : Fin 1) _ _
    concatenates_S800000_S2816_S802816_d0 (ix1 (EdgeConv.lo e)) rfl (ix1 e) (fun b => by
      match b with
      | ⟨0, _⟩ => rfl)

/-- and every padding edge points at the extra row 50000. -/
theorem V_v3_hi (c : Dev nD) (p : Fin 2816) :
    V m c main_v3 (ix1 (EdgeConv.hi p)) = 50000#32 := by
  -- position 800000 + p falls in the second piece, at position p; that piece is the constant word everywhere
  refine (congrFun (V_v3_eq m c) (ix1 (EdgeConv.hi p))).trans ?_
  refine (concatenate_pair_apply_right (t := S802816) (s₁ := S800000) (s₂ := S2816) (0 : Fin 1) _ _
    concatenates_S800000_S2816_S802816_d0 (ix1 (EdgeConv.hi p)) rfl rfl (ix1 p) (fun b hb => ?_) ?_).trans ?_
  · match b with
    | ⟨0, _⟩ => exact absurd rfl hb
  · show p.val + 800000 = 800000 + p.val
    omega
  · rfl

/-- The padded edge features: the real edges keep theirs. -/
theorem V_v5_lo (c : Dev nD) (e : Fin 800000) (k : Fin 32) :
    V m c main_v5 (ix2 (EdgeConv.lo e) k) = m ((c : Thread nD τ).loc main_arg1) (ix2 e k) := by
  -- row e < 800000 falls in the first piece of the concatenation along the rows, at the same row and column
  refine (congrFun (V_v5_eq m c) (ix2 (EdgeConv.lo e) k)).trans ?_
  exact concatenate_pair_apply_left (t := S802816x32) (s₁ := S800000x32) (s₂ := S2816x32) (0 : Fin 2) _ _
    concatenates_S800000x32_S2816x32_S802816x32_d0 (ix2 (EdgeConv.lo e) k) rfl (ix2 e k) (fun b => by
      match b with
      | ⟨0, _⟩ => rfl
      | ⟨1, _⟩ => rfl)

/-- The three slices of the first weight matrix: rows 0–63, 64–127, 128–159. -/
theorem V_v10_apply (c : Dev nD) (i k : Fin 64) :
    V m c main_v10 (ix2 i k) = m ((c : Thread nD τ).loc main_arg4) (ix2 (⟨i.val, by have := i.isLt; omega⟩ : Fin 160) k) := by
  refine (congrFun (V_v10_eq m c) (ix2 i k)).trans ?_
  exact slice2_axis0_apply 0 _ slices_S160x64_S64x64_0_0 i k _ (Nat.zero_add _).symm

theorem V_v11_apply (c : Dev nD) (i k : Fin 64) :
    V m c main_v11 (ix2 i k) = m ((c : Thread nD τ).loc main_arg4) (ix2 (⟨64 + i.val, by have := i.isLt; omega⟩ : Fin 160) k) := by
  refine (congrFun (V_v11_eq m c) (ix2 i k)).trans ?_
  exact slice2_axis0_apply 64 _ slices_S160x64_S64x64_64_0 i k _ rfl

theorem V_v12_apply (c : Dev nD) (i : Fin 32) (k : Fin 64) :
    V m c main_v12 (ix2 i k) = m ((c : Thread nD τ).loc main_arg4) (ix2 (⟨128 + i.val, by have := i.isLt; omega⟩ : Fin 160) k) := by
  refine (congrFun (V_v12_eq m c) (ix2 i k)).trans ?_
  exact slice2_axis0_apply 128 _ slices_S160x64_S32x64_128_0 i k _ rfl

end Cert.KernelIdeal.KVal

end
-- ==== Proof.KernelTail.lean ====
import proofs.«408115_j74474732912710_4_alg».proof.Proof.Gen.KernelIdeal.Frame
import proofs.«408115_j74474732912710_4_alg».proof.Proof.Spec
import proofs.«408115_j74474732912710_4_alg».proof.Proof.LibRows
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The message array the region leaves, -/
abbrev msgs (c : Dev nD) : (⟨2, ![802816, 64]⟩ : Shape).Idx → EReal := (dats m 0 c).arrAt 9 cfg0.N
/-- the padded destination words, -/
abbrev dstPad (c : Dev nD) : (⟨1, ![802816]⟩ : Shape).Idx → BitVec 32 := V m c main_v3
/-- and the program's result after the lines behind the region. -/
abbrev result (c : Dev nD) : (⟨2, ![50000, 64]⟩ : Shape).Idx → EReal :=
  Pipeline.afterTail₀ cfgs (dats m) 0 (V0 m) [hostOps1] c main_v17

/-- The lines behind the region as one term: an accumulating scatter of the message array's rows into a zero table of
    50001 rows, at the rows the padded destination words name, and then the cut to the first 50000 rows. -/
private theorem result_eq (c : Dev nD) :
    result m c
      = extractStridedSlice S50000x64 ![0, 0]
          (Host.scatterAdd (F := Ideal) scatter_S50001x64_S802816x1_S802816x64_1_0_0_1
            (broadcastInDim S50001x64 ![] bcast_S_S50001x64 (constant (F := Ideal) S_ .f32 0x00000000#32))
            (broadcastInDim S802816x1 ![0] bcast_S802816_S802816x1_0 (dstPad m c))
            (msgs m c))
          slices_S50001x64_S50000x64_0_0 := by
  unfold result Pipeline.afterTail₀
  show StableHlo.after hostOps1 _ (Proc.devRef .tc main_v17) = _
  after_results
  -- the destination words are no window's array: the region leaves them as the lines before it made them
  have e3 : Pipeline.withArrays (cfgs 0).spec c (V0 m c) (fun w => (dats m 0 c).arrAt w (cfgs 0).N)
      (Proc.devRef .tc main_v3) = dstPad m c :=
    Pipeline.withArrays_of_ne _ c (V0 m c) _ main_v3 (by exact (by decide : ∀ w, Pipeline.arrRef spec0 w ≠ main_v3))
  -- the message array is the last window's array
  have e13 : Pipeline.withArrays (cfgs 0).spec c (V0 m c) (fun w => (dats m 0 c).arrAt w (cfgs 0).N)
      (Proc.devRef .tc main_v13) = msgs m c :=
    Pipeline.withArrays_arr spec0 launch0.win.arr_inj c _ _ 9
  rw [e3, e13]

/-- The accumulating scatter of rows over exact numbers, read at row r, unit q: the table's entry plus the update rows whose
    index word, read signed, is r. -/
private theorem scatter_rows_apply (x : (⟨2, ![50001, 64]⟩ : Shape).Idx → EReal)
    (col : (⟨2, ![802816, 1]⟩ : Shape).Idx → BitVec 32) (upd : (⟨2, ![802816, 64]⟩ : Shape).Idx → EReal)
    (r : Fin 50001) (q : Fin 64) :
    Host.scatterAdd (F := Ideal) (φ := .f32) scatter_S50001x64_S802816x1_S802816x64_1_0_0_1 x col upd (ix2 r q)
      = x (ix2 r q) + ∑ e : Fin 802816, if (col (ix2 e (0 : Fin 1))).toInt = (r.val : ℤ) then upd (ix2 e q) else 0 :=
  (congrFun (Ideal.hostScatterAdd_def (φ := .f32) scatter_S50001x64_S802816x1_S802816x64_1_0_0_1 .single x col upd) (ix2 r q)).trans
    (Gcn.Rows.scatterAdd_rows scatter_S50001x64_S802816x1_S802816x64_1_0_0_1 rfl rfl rfl rfl x col upd r q)

/-- The same into a zero table (a constant spread over the table), with the index column made from a vector of words (the
    column at (e, 0) is the word at position e): the sum of the update rows whose word, read signed, is r. -/
private theorem scatter_from_zero (idx : (⟨1, ![802816]⟩ : Shape).Idx → BitVec 32)
    (upd : (⟨2, ![802816, 64]⟩ : Shape).Idx → EReal) (r : Fin 50001) (q : Fin 64) :
    Host.scatterAdd (F := Ideal) scatter_S50001x64_S802816x1_S802816x64_1_0_0_1
        (broadcastInDim S50001x64 ![] bcast_S_S50001x64 (constant (F := Ideal) S_ .f32 0x00000000#32))
        (broadcastInDim S802816x1 ![0] bcast_S802816_S802816x1_0 idx) upd (ix2 r q)
      = ∑ e : Fin 802816, if (idx (ix1 e)).toInt = (r.val : ℤ) then upd (ix2 e q) else 0 := by
  rw [scatter_rows_apply]
  -- the table is zero everywhere
  rw [StableHlo.Predicate.bcast_scalar bcast_S_S50001x64 (by decide), ValueIdx.constant_apply, Ideal.ofBits_zero_f32, zero_add]
  refine Finset.sum_congr rfl fun e _ => ?_
  -- the index column at (e, 0) is the word at position e
  rw [broadcastInDim_apply (![0] : Fin 1 → Fin 2) bcast_S802816_S802816x1_0 idx (ix2 e (0 : Fin 1)) (ix1 e)
    (fun a => by
      obtain rfl : a = 0 := Subsingleton.elim _ _
      rfl)]

/-- The result at node n, unit j is the sum of the message array's rows whose padded destination word, read signed, is n
    (the accumulation starts from zero, and the extra row is cut off). -/
theorem result_apply (c : Dev nD) (n : Fin 50000) (j : Fin 64) :
    result m c (ix2 n j)
      = ∑ e' : Fin 802816, if (dstPad m c (ix1 e')).toInt = (n.val : ℤ) then msgs m c (ix2 e' j) else 0 := by
  rw [result_eq m c]
  -- the cut keeps row n: row n of the 50001-row table
  rw [ValueIdx.slice2_axis0_apply (α := EReal) 0 _ slices_S50001x64_S50000x64_0_0 n j
    (⟨n.val, by have := n.isLt; omega⟩ : Fin 50001) (Nat.zero_add _).symm]
  exact scatter_from_zero (dstPad m c) (msgs m c) ⟨n.val, by have := n.isLt; omega⟩ j

end Cert.KernelIdeal.KVal

end
-- ==== Proof.Words.lean ====
/-
  Node index words.

  A 32-bit word read signed. For a source word between −50000 and 49999, counting a negative word from the end of the table
  lands it inside the table, so the range mask of the gather is set. For a destination word that reads as a node n of the
  table, cutting it at the last row, wrapping it, and clamping it all leave it alone, and the row it names is n.
-/
import proofs.«408115_j74474732912710_4_alg».proof.Proof.Spec
import Idealize.ShloMosaic.Lib.StableHlo.Predicate

namespace EdgeConv

open Idealize.ShloMosaic

theorem cmpi_slt_iff (a b : BitVec 32) : IntOp.cmpi .slt a b = 1#1 ↔ a.toInt < b.toInt := by
  unfold IntOp.cmpi
  rw [StableHlo.Predicate.ofBool_eq_one_iff, BitVec.slt_iff_toInt_lt]

theorem cmpi_sle_iff (a b : BitVec 32) : IntOp.cmpi .sle a b = 1#1 ↔ a.toInt ≤ b.toInt := by
  unfold IntOp.cmpi
  rw [StableHlo.Predicate.ofBool_eq_one_iff, BitVec.sle_iff_toInt_le]

theorem cmpi_sge_iff (a b : BitVec 32) : IntOp.cmpi .sge a b = 1#1 ↔ b.toInt ≤ a.toInt := by
  unfold IntOp.cmpi
  rw [StableHlo.Predicate.ofBool_eq_one_iff, BitVec.sle_iff_toInt_le]

theorem toInt_zero32 : (0#32 : BitVec 32).toInt = 0 := by decide
theorem toInt_49999 : (49999#32 : BitVec 32).toInt = 49999 := by decide
theorem toInt_50000 : (50000#32 : BitVec 32).toInt = 50000 := by decide
theorem toInt_neg50000 : (4294917296#32 : BitVec 32).toInt = -50000 := by decide

/-- A negative word no less than −50000, plus 50000, is the number plus 50000: nothing wraps around. -/
theorem toInt_add_50000 (s : BitVec 32) (h1 : -50000 ≤ s.toInt) (h2 : s.toInt < 0) :
    (s + 50000#32).toInt = s.toInt + 50000 := by
  rw [BitVec.toInt_add, toInt_50000, Int.bmod_def]
  omega

/-- The wrapped word of a non-negative word is the word. -/
theorem wrap_of_nonneg (s : BitVec 32) (h : 0 ≤ s.toInt) : wrap s = s := by
  unfold wrap Scalar.select
  rw [if_neg]
  intro hc
  have := (cmpi_slt_iff s 0#32).mp hc
  rw [toInt_zero32] at this
  omega

/-- The wrapped word of a negative word is the word plus 50000. -/
theorem wrap_of_neg (s : BitVec 32) (h : s.toInt < 0) : wrap s = s + 50000#32 := by
  unfold wrap Scalar.select
  rw [if_pos]
  · rfl
  · exact (cmpi_slt_iff s 0#32).mpr (by rw [toInt_zero32]; exact h)

/-- A source word between −50000 and 49999 wraps into the table. -/
theorem wrap_range (s : BitVec 32) (h1 : -50000 ≤ s.toInt) (h2 : s.toInt < 50000) :
    0 ≤ (wrap s).toInt ∧ (wrap s).toInt ≤ 49999 := by
  by_cases hn : s.toInt < 0
  · rw [wrap_of_neg s hn, toInt_add_50000 s h1 hn]; omega
  · rw [wrap_of_nonneg s (by omega)]; omega

/-- So the gather's range mask is set at such a word: this is what the precondition on the source words buys. -/
theorem wrap_mask (s : BitVec 32) (h1 : IntOp.cmpi .sge s 4294917296#32 = 1#1) (h2 : IntOp.cmpi .slt s 50000#32 = 1#1) :
    IntOp.cmpi .sge (wrap s) 0#32 = 1#1 ∧ IntOp.cmpi .sle (wrap s) 49999#32 = 1#1 := by
  have a1 := (cmpi_sge_iff _ _).mp h1
  have a2 := (cmpi_slt_iff _ _).mp h2
  rw [toInt_neg50000] at a1
  rw [toInt_50000] at a2
  have := wrap_range s a1 a2
  exact ⟨(cmpi_sge_iff _ _).mpr (by rw [toInt_zero32]; exact this.1),
    (cmpi_sle_iff _ _).mpr (by rw [toInt_49999]; exact this.2)⟩

/-- A destination word that reads as node n: cutting it at the last row leaves it alone, -/
theorem minsi_of_node (d : BitVec 32) (n : Fin 50000) (h : d.toInt = (n.val : ℤ)) : IntOp.minsi d 49999#32 = d := by
  have hn := n.isLt
  unfold IntOp.minsi
  by_cases hc : d.slt 49999#32 = true
  · rw [if_pos hc]
  · rw [if_neg hc]
    have : ¬ d.toInt < (49999#32 : BitVec 32).toInt := fun hh => hc (BitVec.slt_iff_toInt_lt.mpr hh)
    rw [toInt_49999] at this
    apply BitVec.eq_of_toInt_eq
    rw [toInt_49999]; omega

/-- so does wrapping, its range mask is set, -/
theorem node_mask (d : BitVec 32) (n : Fin 50000) (h : d.toInt = (n.val : ℤ)) :
    wrap d = d ∧ IntOp.cmpi .sge d 0#32 = 1#1 ∧ IntOp.cmpi .sle d 49999#32 = 1#1 := by
  have hn := n.isLt
  refine ⟨wrap_of_nonneg d (by omega), (cmpi_sge_iff _ _).mpr (by rw [toInt_zero32]; omega),
    (cmpi_sle_iff _ _).mpr (by rw [toInt_49999]; omega)⟩

/-- and the row it names is n. -/
theorem rowAt_of_node (d : BitVec 32) (n : Fin 50000) (h : d.toInt = (n.val : ℤ)) : rowAt d = n := by
  have hn := n.isLt
  unfold rowAt
  apply Fin.ext
  show min d.toInt.toNat 49999 = n.val
  rw [h]
  omega

end EdgeConv
-- ==== Proof.Laws.lean ====
/-
  Two facts about finite sums of extended reals (addition of extended reals is commutative and associative, so a finite sum
  may be cut into stretches; nothing here needs the terms finite).

  A sum over 160 terms is the sum of its first 64, its next 64 and its last 32 terms: with the first weight matrix cut into
  the matching three row bands, the first layer over the concatenated input is the first layer split by segment.
  A sum over the padded edge list is the sum over the real edges plus the sum over the padding.
-/
import proofs.«408115_j74474732912710_4_alg».proof.Proof.Spec
import Mathlib.Algebra.BigOperators.Fin

noncomputable section

namespace EdgeConv

open Idealize.ShloMosaic Idealize.ShloMosaic.ValueIdx

theorem sum_split3 (f : Fin 160 → EReal) :
    ∑ i : Fin 160, f i
      = ((∑ i : Fin 64, f ⟨i.val, by have := i.isLt; omega⟩) + (∑ i : Fin 64, f ⟨64 + i.val, by have := i.isLt; omega⟩))
        + (∑ i : Fin 32, f ⟨128 + i.val, by have := i.isLt; omega⟩) := by
  have h1 := Fin.sum_univ_add (a := 128) (b := 32) (f := f)
  have h2 := Fin.sum_univ_add (a := 64) (b := 64) (f := fun i : Fin 128 => f (Fin.castAdd 32 i))
  rw [h1, h2]
  rfl

theorem sum_pad (f : Fin 802816 → EReal) :
    ∑ e' : Fin 802816, f e' = (∑ e : Fin 800000, f (lo e)) + (∑ p : Fin 2816, f (hi p)) := by
  have h1 := Fin.sum_univ_add (a := 800000) (b := 2816) (f := f)
  rw [h1]
  rfl

/-- The first layer: split by segment over the three row bands of the weight matrix, or over the concatenated input. -/
theorem hidSplit_eq_hidCat (xs xd : Fin 64 → EReal) (xe : Fin 32 → EReal) (Wa Wb : (⟨2, ![64, 64]⟩ : Shape).Idx → EReal)
    (Wc : (⟨2, ![32, 64]⟩ : Shape).Idx → EReal) (W1 : (⟨2, ![160, 64]⟩ : Shape).Idx → EReal)
    (b1 : (⟨1, ![64]⟩ : Shape).Idx → EReal)
    (ha : ∀ (i k : Fin 64), Wa (ix2 i k) = W1 (ix2 (⟨i.val, by have := i.isLt; omega⟩ : Fin 160) k))
    (hb : ∀ (i k : Fin 64), Wb (ix2 i k) = W1 (ix2 (⟨64 + i.val, by have := i.isLt; omega⟩ : Fin 160) k))
    (hc : ∀ (i : Fin 32) (k : Fin 64), Wc (ix2 i k) = W1 (ix2 (⟨128 + i.val, by have := i.isLt; omega⟩ : Fin 160) k))
    (k : Fin 64) :
    hidSplit xs xd xe Wa Wb Wc b1 k = hidCat (cat3 xs xd xe) W1 b1 k := by
  unfold hidSplit hidCat
  rw [sum_split3]
  congr 1
  congr 1
  · congr 1
    · refine Finset.sum_congr rfl fun i _ => ?_
      have hi := i.isLt
      rw [ha]
      congr 1
      unfold cat3
      rw [dif_pos (show (⟨i.val, by omega⟩ : Fin 160).val < 64 from hi)]
    · refine Finset.sum_congr rfl fun i _ => ?_
      have hi := i.isLt
      rw [hb]
      congr 1
      unfold cat3
      rw [dif_neg (show ¬ (⟨64 + i.val, by omega⟩ : Fin 160).val < 64 by show ¬ 64 + i.val < 64; omega),
        dif_pos (show (⟨64 + i.val, by omega⟩ : Fin 160).val < 128 by show 64 + i.val < 128; omega)]
      congr 1
      apply Fin.ext
      show i.val = 64 + i.val - 64
      omega
  · refine Finset.sum_congr rfl fun i _ => ?_
    have hi := i.isLt
    rw [hc]
    congr 1
    unfold cat3
    rw [dif_neg (show ¬ (⟨128 + i.val, by omega⟩ : Fin 160).val < 64 by show ¬ 128 + i.val < 64; omega),
      dif_neg (show ¬ (⟨128 + i.val, by omega⟩ : Fin 160).val < 128 by show ¬ 128 + i.val < 128; omega)]
    congr 1
    apply Fin.ext
    show i.val = 128 + i.val - 128
    omega

end EdgeConv

end
-- ==== Proof.Bridge.lean ====
/-
  The kernel's result is the layer's result.

  Node n, unit j of the result sums the message array over the padded edges whose destination word reads as n. A padding
  edge's word is 50000, which is no node, so only real edges contribute. For a real edge e whose destination word reads as a
  node n, the staged rows are the rows the layer names: the source row because an admitted source word wraps into the table
  (so the gather's range mask is set and its fill value is never taken), the destination row because a word that reads as a
  node is left alone by the cut at the last row, the wrap and the clamp. The first layer's three partial products over the row
  bands of the weight matrix add up to the product with the concatenated input.
-/
import proofs.«408115_j74474732912710_4_alg».proof.Proof.KernelMsg
import proofs.«408115_j74474732912710_4_alg».proof.Proof.KernelTake
import proofs.«408115_j74474732912710_4_alg».proof.Proof.KernelPad
import proofs.«408115_j74474732912710_4_alg».proof.Proof.KernelTail
import proofs.«408115_j74474732912710_4_alg».proof.Proof.Words
import proofs.«408115_j74474732912710_4_alg».proof.Proof.Laws

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The argument arrays, named at their literal types. -/
abbrev nodeArr (c : Dev nD) : (⟨2, ![50000, 64]⟩ : Shape).Idx → EReal := m ((c : Thread nD τ).loc main_arg0)
abbrev edgeArr (c : Dev nD) : (⟨2, ![800000, 32]⟩ : Shape).Idx → EReal := m ((c : Thread nD τ).loc main_arg1)
abbrev srcArr (c : Dev nD) : (⟨1, ![800000]⟩ : Shape).Idx → BitVec 32 := m ((c : Thread nD τ).loc main_arg2)
abbrev dstArr (c : Dev nD) : (⟨1, ![800000]⟩ : Shape).Idx → BitVec 32 := m ((c : Thread nD τ).loc main_arg3)
abbrev w1Arr (c : Dev nD) : (⟨2, ![160, 64]⟩ : Shape).Idx → EReal := m ((c : Thread nD τ).loc main_arg4)
abbrev b1Arr (c : Dev nD) : (⟨1, ![64]⟩ : Shape).Idx → EReal := m ((c : Thread nD τ).loc main_arg5)
abbrev w2Arr (c : Dev nD) : (⟨2, ![64, 64]⟩ : Shape).Idx → EReal := m ((c : Thread nD τ).loc main_arg6)
abbrev b2Arr (c : Dev nD) : (⟨1, ![64]⟩ : Shape).Idx → EReal := m ((c : Thread nD τ).loc main_arg7)

/-- A real edge whose destination word reads as a node carries the layer's message. -/
theorem msg_at (c : Dev nD) (e : Fin 800000) (j : Fin 64) (n : Fin 50000)
    (hs1 : IntOp.cmpi .sge (srcArr m c (ix1 e)) 4294917296#32 = 1#1) (hs2 : IntOp.cmpi .slt (srcArr m c (ix1 e)) 50000#32 = 1#1)
    (hd : (dstArr m c (ix1 e)).toInt = (n.val : ℤ)) :
    msgs m c (ix2 (EdgeConv.lo e) j)
      = EdgeConv.refMsg (nodeArr m c) (edgeArr m c) (srcArr m c) (dstArr m c) (w1Arr m c) (b1Arr m c) (w2Arr m c) (b2Arr m c) e j := by
  have hmask := EdgeConv.wrap_mask _ hs1 hs2
  have hmin := EdgeConv.minsi_of_node _ n hd
  obtain ⟨hw, hge, hle⟩ := EdgeConv.node_mask _ n hd
  have h8 : (fun k : Fin 64 => (V m c main_v8 (ix2 (EdgeConv.lo e) k) : EReal))
      = fun k => nodeArr m c (ix2 (EdgeConv.rowAt (EdgeConv.wrap (srcArr m c (ix1 e)))) k) :=
    funext fun k => V_v8_lo m c e k hmask.1 hmask.2
  have h9 : (fun k : Fin 64 => (V m c main_v9 (ix2 (EdgeConv.lo e) k) : EReal))
      = fun k => nodeArr m c (ix2 (EdgeConv.rowAt (EdgeConv.wrap (dstArr m c (ix1 e)))) k) :=
    funext fun k => by
      have := V_v9_lo m c e k (by rw [hmin, hw]; exact hge) (by rw [hmin, hw]; exact hle)
      rw [hmin] at this
      exact this
  have h5 : (fun k : Fin 32 => (V m c main_v5 (ix2 (EdgeConv.lo e) k) : EReal)) = fun k => edgeArr m c (ix2 e k) :=
    funext fun k => V_v5_lo m c e k
  rw [show msgs m c = _ from msgs_eq m c]
  show EdgeConv.layer2 (EdgeConv.hidSplit (fun k : Fin 64 => (V m c main_v8 (ix2 (EdgeConv.lo e) k) : EReal))
      (fun k : Fin 64 => (V m c main_v9 (ix2 (EdgeConv.lo e) k) : EReal)) (fun k : Fin 32 => (V m c main_v5 (ix2 (EdgeConv.lo e) k) : EReal))
      (V m c main_v10) (V m c main_v11) (V m c main_v12) (V m c main_arg5)) (V m c main_arg6) (V m c main_arg7) j = _
  rw [h8, h9, h5, V_main_arg5, V_main_arg6, V_main_arg7]
  exact congrArg (fun h => EdgeConv.layer2 h (w2Arr m c) (b2Arr m c) j)
    (funext fun k => EdgeConv.hidSplit_eq_hidCat _ _ _ _ _ _ (w1Arr m c) (b1Arr m c)
      (V_v10_apply m c) (V_v11_apply m c) (V_v12_apply m c) k)

/-- Where every source word lies between −50000 and 49999, the kernel's result array is the layer's result. -/
theorem result_is_layer (c : Dev nD)
    (hsrc : ∀ e : Fin 800000, IntOp.cmpi .sge (srcArr m c (ix1 e)) 4294917296#32 = 1#1
      ∧ IntOp.cmpi .slt (srcArr m c (ix1 e)) 50000#32 = 1#1) :
    result m c
      = EdgeConv.G (nodeArr m c) (edgeArr m c) (srcArr m c) (dstArr m c) (w1Arr m c) (b1Arr m c) (w2Arr m c) (b2Arr m c) := by
  funext i
  obtain ⟨n, j, rfl⟩ : ∃ (n : Fin 50000) (j : Fin 64), i = ix2 n j := ⟨i 0, i 1, eq_ix2 i⟩
  rw [result_apply, EdgeConv.sum_pad]
  have hpad : (∑ p : Fin 2816, if (dstPad m c (ix1 (EdgeConv.hi p))).toInt = (n.val : ℤ) then msgs m c (ix2 (EdgeConv.hi p) j) else 0) = 0 := by
    refine Finset.sum_eq_zero fun p _ => ?_
    rw [if_neg]
    show ¬ (V m c main_v3 (ix1 (EdgeConv.hi p))).toInt = (n.val : ℤ)
    rw [V_v3_hi, EdgeConv.toInt_50000]
    have := n.isLt
    omega
  rw [hpad, add_zero]
  show _ = ∑ e : Fin 800000, if (dstArr m c (ix1 e)).toInt = (n.val : ℤ)
    then EdgeConv.refMsg (nodeArr m c) (edgeArr m c) (srcArr m c) (dstArr m c) (w1Arr m c) (b1Arr m c) (w2Arr m c) (b2Arr m c) e j else 0
  refine Finset.sum_congr rfl fun e _ => ?_
  have hlo : dstPad m c (ix1 (EdgeConv.lo e)) = dstArr m c (ix1 e) := V_v3_lo m c e
  rw [hlo]
  by_cases hd : (dstArr m c (ix1 e)).toInt = (n.val : ℤ)
  · rw [if_pos hd, if_pos hd]
    exact msg_at m c e j n (hsrc e).1 (hsrc e).2 hd
  · rw [if_neg hd, if_neg hd]

end Cert.KernelIdeal.KVal

end
-- ==== Proof.RefValue.lean ====
import proofs.«408115_j74474732912710_4_alg».proof.Proof.Gen.ReferenceIdeal.Read
import proofs.«408115_j74474732912710_4_alg».proof.Proof.Spec
import proofs.«408115_j74474732912710_4_alg».proof.Proof.LibRows

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The index words

  The word a gather reads for edge e is the edge's node word with a negative word counted from the end of the table:
  compare with zero, add the table's length, select. All three are pointwise, the two constants are splats. -/

/-- The source gather's index column at edge e is the wrapped source word. -/
private theorem word_src (x2 : (⟨S800000, .i32⟩ : BufTy).Contents (Elt Ideal)) (e : Fin 800000) :
    Read.val_main_v5 (F := Ideal) x2 (ix2 e (0 : Fin 1)) = EdgeConv.wrap (x2 (ix1 e)) := by
  have hi : Read.idx_main_v5 (ix2 e (0 : Fin 1)) = ix1 e := funext fun a => by
    match a with
    | ⟨0, _⟩ => rfl
  rw [Read.val_main_v5_apply, hi, Read.val_main_v4_apply, Read.val_main_v1_apply, Read.val_main_v3_apply,
    Read.val_main_v0_apply, Read.val_main_v2_apply, Read.val_main_c_apply, Read.val_main_c_0_apply]
  rfl

/-- The destination gather's index column at edge e is the wrapped destination word. -/
private theorem word_dst (x3 : (⟨S800000, .i32⟩ : BufTy).Contents (Elt Ideal)) (e : Fin 800000) :
    Read.val_main_v12 (F := Ideal) x3 (ix2 e (0 : Fin 1)) = EdgeConv.wrap (x3 (ix1 e)) := by
  have hi : Read.idx_main_v12 (ix2 e (0 : Fin 1)) = ix1 e := funext fun a => by
    match a with
    | ⟨0, _⟩ => rfl
  rw [Read.val_main_v12_apply, hi, Read.val_main_v11_apply, Read.val_main_v8_apply, Read.val_main_v10_apply,
    Read.val_main_v7_apply, Read.val_main_v9_apply, Read.val_main_c_1_apply, Read.val_main_c_2_apply]
  rfl

/-! ## The two gathers

  A row gather reads, at (e, q), the table at the row its index word names (read signed, clamped into the table) and
  column q. -/

/-- The gathered source rows. -/
private theorem gather_src (x0 : (⟨S50000x64, .f32⟩ : BufTy).Contents (Elt Ideal))
    (x2 : (⟨S800000, .i32⟩ : BufTy).Contents (Elt Ideal)) (e : Fin 800000) (q : Fin 64) :
    Read.val_main_v6 (F := Ideal) x0 x2 (ix2 e q) = x0 (ix2 (EdgeConv.rowAt (EdgeConv.wrap (x2 (ix1 e)))) q) := by
  have hw := word_src x2 e
  unfold Read.val_main_v6
  rw [Gcn.Rows.gather_rows gather_S50000x64_S800000x1_S800000x64_1_0_n_n_0_1_164 rfl rfl rfl rfl rfl rfl x0
    (Read.val_main_v5 (F := Ideal) x2) e q (by decide)]
  simp only [hw]
  rfl

/-- The gathered destination rows. -/
private theorem gather_dst (x0 : (⟨S50000x64, .f32⟩ : BufTy).Contents (Elt Ideal))
    (x3 : (⟨S800000, .i32⟩ : BufTy).Contents (Elt Ideal)) (e : Fin 800000) (q : Fin 64) :
    Read.val_main_v13 (F := Ideal) x0 x3 (ix2 e q) = x0 (ix2 (EdgeConv.rowAt (EdgeConv.wrap (x3 (ix1 e)))) q) := by
  have hw := word_dst x3 e
  unfold Read.val_main_v13
  rw [Gcn.Rows.gather_rows gather_S50000x64_S800000x1_S800000x64_1_0_n_n_0_1_164 rfl rfl rfl rfl rfl rfl x0
    (Read.val_main_v12 (F := Ideal) x3) e q (by decide)]
  simp only [hw]
  rfl

/-! ## The concatenated input

  Along the joined axis the first 64 coordinates fall in the source rows, the next 64 in the destination rows, the last 32
  in the edge features; each piece is read at the coordinate less the extents before it. -/

/-- Edge e's concatenated input is its three vectors laid end to end. -/
private theorem cat_eq (x0 : (⟨S50000x64, .f32⟩ : BufTy).Contents (Elt Ideal))
    (x1 : (⟨S800000x32, .f32⟩ : BufTy).Contents (Elt Ideal)) (x2 x3 : (⟨S800000, .i32⟩ : BufTy).Contents (Elt Ideal))
    (e : Fin 800000) (i : Fin 160) :
    Read.val_main_v14 (F := Ideal) x0 x1 x2 x3 (ix2 e i)
      = EdgeConv.cat3 (fun k => x0 (ix2 (EdgeConv.rowAt (EdgeConv.wrap (x2 (ix1 e)))) k))
          (fun k => x0 (ix2 (EdgeConv.rowAt (EdgeConv.wrap (x3 (ix1 e)))) k)) (fun k => x1 (ix2 e k)) i := by
  unfold Read.val_main_v14 EdgeConv.cat3
  by_cases h1 : i.val < 64
  · rw [dif_pos h1]
    refine (concatenate_apply_piece (1 : Fin S800000x160.rank) _ _ (ix2 e i) 0 (by show (0 : ℕ) < 3; omega) S800000x64
      (Read.val_main_v6 (F := Ideal) x0 x2) rfl rfl 0 rfl (ix2 e ⟨i.val, h1⟩) ?_ ?_).trans (gather_src x0 x2 e ⟨i.val, h1⟩)
    · intro b hb
      match b with
      | ⟨0, _⟩ => rfl
      | ⟨1, _⟩ => exact absurd rfl hb
    · show 0 + i.val = i.val
      omega
  · rw [dif_neg h1]
    by_cases h2 : i.val < 128
    · rw [dif_pos h2]
      refine (concatenate_apply_piece (1 : Fin S800000x160.rank) _ _ (ix2 e i) 1 (by show (1 : ℕ) < 3; omega) S800000x64
        (Read.val_main_v13 (F := Ideal) x0 x3) rfl rfl 64 rfl (ix2 e ⟨i.val - 64, by omega⟩) ?_ ?_).trans
        (gather_dst x0 x3 e ⟨i.val - 64, by omega⟩)
      · intro b hb
        match b with
        | ⟨0, _⟩ => rfl
        | ⟨1, _⟩ => exact absurd rfl hb
      · show 64 + (i.val - 64) = i.val
        omega
    · rw [dif_neg h2]
      have hi := i.isLt
      refine concatenate_apply_piece (1 : Fin S800000x160.rank) _ _ (ix2 e i) 2 (by show (2 : ℕ) < 3; omega) S800000x32 x1
        rfl rfl 128 rfl (ix2 e ⟨i.val - 128, by omega⟩) ?_ ?_
      · intro b hb
        match b with
        | ⟨0, _⟩ => rfl
        | ⟨1, _⟩ => exact absurd rfl hb
      · show 128 + (i.val - 128) = i.val
        omega

/-! ## The perceptron

  A matrix product's element is the sum over the contracted coordinate; a bias row is broadcast along the edges; the
  rectifier is the maximum with the zero splat. -/

/-- The rectified first layer of edge e at hidden unit k. -/
private theorem hid_eq (x0 : (⟨S50000x64, .f32⟩ : BufTy).Contents (Elt Ideal))
    (x1 : (⟨S800000x32, .f32⟩ : BufTy).Contents (Elt Ideal)) (x2 x3 : (⟨S800000, .i32⟩ : BufTy).Contents (Elt Ideal))
    (x4 : (⟨S160x64, .f32⟩ : BufTy).Contents (Elt Ideal)) (x5 : (⟨S64, .f32⟩ : BufTy).Contents (Elt Ideal))
    (e : Fin 800000) (k : Fin 64) :
    Read.val_main_v20 (F := Ideal) x0 x1 x2 x3 x4 x5 (ix2 e k)
      = max (EdgeConv.hidCat (EdgeConv.cat3 (fun q => x0 (ix2 (EdgeConv.rowAt (EdgeConv.wrap (x2 (ix1 e)))) q))
          (fun q => x0 (ix2 (EdgeConv.rowAt (EdgeConv.wrap (x3 (ix1 e)))) q)) (fun q => x1 (ix2 e q))) x4 x5 k) 0 := by
  have hl : ∀ q : Fin 160, Read.lidx_main_v15 (ix2 e k) q = ix2 e q := fun q => funext fun a => by
    match a with
    | ⟨0, _⟩ => rfl
    | ⟨1, _⟩ => rfl
  have hr : ∀ q : Fin 160, Read.ridx_main_v15 (ix2 e k) q = ix2 q k := fun q => funext fun a => by
    match a with
    | ⟨0, _⟩ => rfl
    | ⟨1, _⟩ => rfl
  have hb : Read.idx_main_v16 (Read.idx_main_v17 (ix2 e k)) = ix1 k := funext fun a => by
    match a with
    | ⟨0, _⟩ => rfl
  rw [Read.val_main_v20_apply, Read.val_main_v19_apply, Read.val_main_cst_apply, Read.val_main_v18_apply,
    Read.val_main_v17_apply, Read.val_main_v16_apply, hb, Read.val_main_v15_apply]
  simp only [hl, hr, cat_eq, Ideal.ofBits_def, Ideal.ofBits_zero_f32, Ideal.addf_def, Ideal.maximumf_def]
  rfl

/-- Edge e's message at output unit j. -/
private theorem msg_eq (x0 : (⟨S50000x64, .f32⟩ : BufTy).Contents (Elt Ideal))
    (x1 : (⟨S800000x32, .f32⟩ : BufTy).Contents (Elt Ideal)) (x2 x3 : (⟨S800000, .i32⟩ : BufTy).Contents (Elt Ideal))
    (x4 : (⟨S160x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (e : Fin 800000) (j : Fin 64) :
    Read.val_main_v24 (F := Ideal) x0 x1 x2 x3 x4 x5 x6 x7 (ix2 e j) = EdgeConv.refMsg x0 x1 x2 x3 x4 x5 x6 x7 e j := by
  have hl : ∀ k : Fin 64, Read.lidx_main_v21 (ix2 e j) k = ix2 e k := fun k => funext fun a => by
    match a with
    | ⟨0, _⟩ => rfl
    | ⟨1, _⟩ => rfl
  have hr : ∀ k : Fin 64, Read.ridx_main_v21 (ix2 e j) k = ix2 k j := fun k => funext fun a => by
    match a with
    | ⟨0, _⟩ => rfl
    | ⟨1, _⟩ => rfl
  have hb : Read.idx_main_v22 (Read.idx_main_v23 (ix2 e j)) = ix1 j := funext fun a => by
    match a with
    | ⟨0, _⟩ => rfl
  rw [Read.val_main_v24_apply, Read.val_main_v23_apply, Read.val_main_v22_apply, hb, Read.val_main_v21_apply]
  simp only [hl, hr, hid_eq, Ideal.addf_def]
  rfl

/-! ## The segment sum

  The accumulating scatter adds, to the operand's entry at node n, every message row whose index word, read signed, is n.
  Stated for any three operands, so that nothing in it is a known number. -/

/-- The segment sum at node n, unit j. -/
private theorem seg_at (x : (⟨S50000x64, .f32⟩ : BufTy).Contents (Elt Ideal))
    (idx : (⟨S800000x1, .i32⟩ : BufTy).Contents (Elt Ideal)) (upd : (⟨S800000x64, .f32⟩ : BufTy).Contents (Elt Ideal))
    (n : Fin 50000) (j : Fin 64) :
    Host.scatterAdd (F := Ideal) (φ := .f32) (w := 32) scatter_S50000x64_S800000x1_S800000x64_1_0_0_1 x idx upd (ix2 n j)
      = x (ix2 n j) + ∑ e : Fin 800000, if (idx (ix2 e (0 : Fin 1))).toInt = (n.val : ℤ) then upd (ix2 e j) else 0 :=
  Gcn.Rows.scatterAdd_rows scatter_S50000x64_S800000x1_S800000x64_1_0_0_1 rfl rfl rfl rfl x idx upd n j

/-- The operand of the segment sum is the zero splat. -/
private theorem zero_at (i : S50000x64.Idx) : Read.val_main_v25 (F := Ideal) i = (0 : EReal) := by
  rw [Read.val_main_v25_apply, Read.val_main_cst_3_apply, Ideal.ofBits_def, Ideal.ofBits_zero_f32]

/-- The layer's result at node n, unit j. -/
private theorem G_apply (x0 : (⟨S50000x64, .f32⟩ : BufTy).Contents (Elt Ideal)) (x1 : (⟨S800000x32, .f32⟩ : BufTy).Contents (Elt Ideal))
    (x2 x3 : (⟨S800000, .i32⟩ : BufTy).Contents (Elt Ideal)) (x4 : (⟨S160x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (n : Fin 50000) (j : Fin 64) :
    EdgeConv.G x0 x1 x2 x3 x4 x5 x6 x7 (ix2 n j)
      = ∑ e : Fin 800000, if (x3 (ix1 e)).toInt = (n.val : ℤ) then EdgeConv.refMsg x0 x1 x2 x3 x4 x5 x6 x7 e j else 0 := rfl

/-- The reference's result is the layer's result: gather both node rows, concatenate with the edge features, apply the
    perceptron, and add each edge's message to its destination node. -/
theorem ref_eq (x0 : (⟨S50000x64, .f32⟩ : BufTy).Contents (Elt Ideal)) (x1 : (⟨S800000x32, .f32⟩ : BufTy).Contents (Elt Ideal))
    (x2 x3 : (⟨S800000, .i32⟩ : BufTy).Contents (Elt Ideal)) (x4 : (⟨S160x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    Cert.ReferenceIdeal.Read.val_main_v27 (F := Ideal) x0 x1 x2 x3 x4 x5 x6 x7 = EdgeConv.G x0 x1 x2 x3 x4 x5 x6 x7 := by
  funext i
  obtain ⟨n, j, rfl⟩ : ∃ (n : Fin 50000) (j : Fin 64), i = ix2 n j := ⟨i 0, i 1, eq_ix2 i⟩
  -- the index column of the segment sum at edge e is the destination word itself
  have hi : ∀ e : Fin 800000, Read.idx_main_v26 (ix2 e (0 : Fin 1)) = ix1 e := fun e => funext fun a => by
    match a with
    | ⟨0, _⟩ => rfl
  -- the segment sum adds, to the zero operand, the messages of the edges whose destination word is n
  rewrite [G_apply]
  unfold Read.val_main_v27
  rewrite [seg_at, zero_at, zero_add]
  refine Finset.sum_congr rfl fun e _ => ?_
  rw [Read.val_main_v26_apply, hi, msg_eq]

end Cert.ReferenceIdeal.RefValue

end
-- ==== Proof.PreDecode.lean ====
import proofs.«408115_j74474732912710_4_alg».proof.Proof.Gen.Pre_finite_inputs
import proofs.«408115_j74474732912710_4_alg».proof.Proof.Spec
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

/-- The rank-0 shape has one index. -/
private instance subsingleton_scalar_idx : Subsingleton S_.Idx := ⟨fun a b => funext fun d => d.elim0⟩

/-- The precondition's last conjunct, read at an edge: the source word, read signed, is at least −50000 and below 50000. -/
theorem src_range [Cert.Pre_finite_inputs.Facts] (x0 : FVec Ideal S50000x64 .f32) (x1 : FVec Ideal S800000x32 .f32)
    (x2 x3 : IVec S800000 32) (x4 : FVec Ideal S160x64 .f32) (x5 : FVec Ideal S64 .f32) (x6 : FVec Ideal S64x64 .f32)
    (x7 : FVec Ideal S64 .f32)
    (h : Cert.Pre_finite_inputs.fn (F := Ideal) x0 x1 x2 x3 x4 x5 x6 x7 = fun _ => 1#1) (e : Fin 800000) :
    IntOp.cmpi .sge (x2 (ix1 e)) 4294917296#32 = 1#1 ∧ IntOp.cmpi .slt (x2 (ix1 e)) 50000#32 = 1#1 := by
  -- the predicate at its one index
  have h0 := congrFun h ValueIdx.ix0
  dsimp only [fn, fn_part1, fn_part2] at h0
  -- the outer conjunction: only the last conjunct (the reduce over the edges) is needed
  have h34 := (IntOp.andi_eq_one.1 h0).2
  -- a reduce by 'and' over all edges that is 1 had a 1 at every edge
  have h33 := Host.reduce_andi_all _ _ _ _ _ h34 (ix1 e)
  -- the conjunction at edge e; a broadcast scalar read at e is the scalar, by unfolding
  obtain ⟨hge, hlt⟩ := IntOp.andi_eq_one.1 h33
  exact ⟨hge, hlt⟩

end Cert.Pre_finite_inputs.Decode

end
-- ==== Proof.lean ====
/-
  An edge-message-passing layer over a graph of 50000 nodes and 800000 edges: every edge gathers its source and destination
  node features, runs a two-layer perceptron on them and its own features, and every node sums the messages of the edges that
  point at it.

  The kernel pads the edge list to whole blocks of 8192 (the padding points at an extra row 50000 that is cut off at the
  end), gathers the node rows on the host with a range mask whose fill value an admitted source word never takes, computes the
  first layer as three partial products over the row bands of the weight matrix, and sums by destination into 50001 rows.
  The reference gathers with a clamp, computes the first layer over the concatenated input, and sums by destination into
  50000 rows. Both sums drop an edge whose destination word names no row, and on a row below 50000 only edges whose
  destination word reads as that node contribute: for those the two programs' messages are one number. So, where every
  source word lies between −50000 and 49999 (the range in which indexing the node table by it is defined), the two results
  are equal as extended reals, entry by entry; nothing is assumed of the destination words, and no finiteness is used (the
  only law is that a finite sum may be cut into stretches).

  The frames of the two kernel programs are the generated frame runs; the reference's is its generated run with the result
  dropped; the idealization rewrote nothing, so its conjunct is trivial.
-/
import proofs.«408115_j74474732912710_4_alg».proof.Defs
import proofs.«408115_j74474732912710_4_alg».proof.Proof.Gen.Kernel
import proofs.«408115_j74474732912710_4_alg».proof.Proof.Gen.Kernel.Skeleton
import proofs.«408115_j74474732912710_4_alg».proof.Proof.Gen.Kernel.Launch
import proofs.«408115_j74474732912710_4_alg».proof.Proof.Gen.Kernel.Points
import proofs.«408115_j74474732912710_4_alg».proof.Proof.Gen.Kernel.Frame
import proofs.«408115_j74474732912710_4_alg».proof.Proof.Gen.KernelIdeal
import proofs.«408115_j74474732912710_4_alg».proof.Proof.Gen.KernelIdeal.Skeleton
import proofs.«408115_j74474732912710_4_alg».proof.Proof.Gen.KernelIdeal.Launch
import proofs.«408115_j74474732912710_4_alg».proof.Proof.Gen.KernelIdeal.Points
import proofs.«408115_j74474732912710_4_alg».proof.Proof.Gen.KernelIdeal.Frame
import proofs.«408115_j74474732912710_4_alg».proof.Proof.Gen.ReferenceIdeal
import proofs.«408115_j74474732912710_4_alg».proof.Proof.Gen.Pre_finite_inputs
import proofs.«408115_j74474732912710_4_alg».proof.Proof.Gen.ReferenceIdeal.Run
import proofs.«408115_j74474732912710_4_alg».proof.Proof.Gen.ReferenceIdeal.Read
import proofs.«408115_j74474732912710_4_alg».proof.Proof.Bridge
import proofs.«408115_j74474732912710_4_alg».proof.Proof.RefValue
import proofs.«408115_j74474732912710_4_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The idealized kernel's run with its result named: where every source word lies between −50000 and 49999, the result
    array ends at the layer's result of the argument arrays, and the arguments end unchanged. -/
theorem kernel_run (m : (ℓ : Loc Cert.KernelIdeal.nD Cert.KernelIdeal.τ Cert.KernelIdeal.sig) → Buf (Elt Ideal) ℓ) (ρ : Dev Cert.KernelIdeal.nD → PrngReg)
    (hsrc : ∀ (c : Dev Cert.KernelIdeal.nD) (e : Fin 800000),
      IntOp.cmpi .sge (Cert.KernelIdeal.KVal.srcArr m c (ix1 e)) 4294917296#32 = 1#1
        ∧ IntOp.cmpi .slt (Cert.KernelIdeal.KVal.srcArr m c (ix1 e)) 50000#32 = 1#1) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v17) = EdgeConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨((h c).2 Cert.KernelIdeal.main_v17 (Pipeline.mem_restRefs_of Cert.KernelIdeal.main_v17 (by decide) (by decide))).trans (Cert.KernelIdeal.KVal.result_is_layer m c (hsrc c)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).1 6).trans (((Cert.KernelIdeal.Gen.dats m 0 c).arrAt_in 6 rfl _).trans ((Cert.KernelIdeal.Gen.A_eq m c 6).trans (Cert.KernelIdeal.Gen.V_main_arg5 m c))),
      ((h c).1 7).trans (((Cert.KernelIdeal.Gen.dats m 0 c).arrAt_in 7 rfl _).trans ((Cert.KernelIdeal.Gen.A_eq m c 7).trans (Cert.KernelIdeal.Gen.V_main_arg6 m c))),
      ((h c).1 8).trans (((Cert.KernelIdeal.Gen.dats m 0 c).arrAt_in 8 rfl _).trans ((Cert.KernelIdeal.Gen.A_eq m c 8).trans (Cert.KernelIdeal.Gen.V_main_arg7 m c)))⟩)
    (Cert.KernelIdeal.Gen.run_main m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, under the precondition (its last conjunct is the range of the source words),
    the idealized kernel ends at the layer's result of its arguments, and the reference's generated run ends at the
    composed term of its arguments, which is the layer's result too. -/
theorem algebraic : Cert.algebraic_KernelIdeal_ReferenceIdeal := by
  intro m ρ m' ρ' hpre hagree
  have hsrc : ∀ (c : Dev Cert.KernelIdeal.nD) (e : Fin 800000),
      IntOp.cmpi .sge (Cert.KernelIdeal.KVal.srcArr m c (ix1 e)) 4294917296#32 = 1#1
        ∧ IntOp.cmpi .slt (Cert.KernelIdeal.KVal.srcArr m c (ix1 e)) 50000#32 = 1#1 :=
    fun c e => Cert.Pre_finite_inputs.Decode.src_range _ _ _ _ _ _ _ _ (hpre c) e
  refine ⟨fun c => EdgeConv.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run m ρ hsrc, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.RefValue.ref_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
